-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1]⟩ ⟨2, ![1024, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S512x1 : Shape := ⟨2, ![512, 1]⟩
abbrev S2x1x512 : Shape := ⟨3, ![2, 1, 512]⟩
abbrev S_ : Shape := ⟨0, ![]⟩
abbrev S1x256 : Shape := ⟨2, ![1, 256]⟩
abbrev S1x512 : Shape := ⟨2, ![1, 512]⟩
abbrev S1x1x512 : Shape := ⟨3, ![1, 1, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x1, .f32⟩
  | .local _ .vmem, ⟨0, _⟩ => ⟨S512x256, .f32⟩
  | .local _ .vmem, ⟨1, _⟩ => ⟨S512x1, .f32⟩
  | .local _ .vmem, ⟨2, _⟩ => ⟨S2x1x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v19 : BitVec 32 := Scalar.muli v2 c2_i32_14
  let v20 : BitVec 32 := Scalar.addi c0_i32_15 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v21 : BitVec 32 := Scalar.muli v6 c1_i32_16
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  shapeCasts_S1x512_S1x1x512 : S1x512.ShapeCasts S1x1x512
  inb_S2x1x512_S1x1x512_1_0_0 : ∀ a, (![1, 0, 0] : Fin 3 → Nat) a + S1x1x512.size a ≤ S2x1x512.size a
  squeezes_S1x1x512_S1x512 : S1x1x512.Squeezes S1x512
  transposes_S1x512_p1_0_S512x1 : S1x512.Transposes [1, 0] S512x1
  inb_S512x1_S512x1_0_0 : ∀ a, (![0, 0] : Fin 2 → Nat) a + S512x1.size a ≤ S512x1.size a
  h_S512x1 : 0 < S512x1.numel
  dot_S1x256_S512x256_S1x512_1_1_0_0_n_n_wf : DotDims.WF S1x256 S512x256 S1x512 [1] [1] [0] [0] [] []
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2
def dot_S1x256_S512x256_S1x512_1_1_0_0_n_n : DotDims S1x256 S512x256 S1x512 where
  lhsContracting := [1]
  rhsContracting := [1]
  lhsNonContracting := [0]
  rhsNonContracting := [0]
  lhsBatch := []
  rhsBatch := []
  wf := dot_S1x256_S512x256_S1x512_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S1024 : Shape := ⟨1, ![1024]⟩
abbrev S1024x1 : Shape := ⟨2, ![1024, 1]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S1024, .f32⟩
  | .hbm, ⟨3, _⟩ => ⟨S1024x1, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)

variable [Facts₀]

class Facts : Prop extends Facts₀ where

variable [Facts]
-- ==== Proof.Pair.lean ====
/-
  The devices work in pairs: a device's partner sits in the same mesh row, in the other column. This module names the
  partner, shows that the kernel's two device-id chains both compute it, and names the result a device stores as a
  function of its own input block and its partner's.
-/
import proofs.«901100_g7700000000001101_dist_sum_ax1_xy_m512_n256_v7x_xy2x2_bf16_1_alg».proof.Proof.Gen.KernelIdeal.Skeleton

noncomputable section

namespace Cert.KernelIdeal.Pair

open Cert.KernelIdeal Cert.KernelIdeal.Gen
open Idealize.ShloMosaic

variable {F : FTy → Type} [FloatOps F]

/-- The partner of device `c` at mesh position (c / 2, c % 2): the device at (c / 2, 1 - c % 2). -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide
theorem peer_val (c : Dev nD) : (peer c).val = (2 * (c.val / 2) + 1) - (c.val % 2) := rfl

/-- Both device-id chains of the kernel (the signal's and the transfer's) name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The row sums of a [512, 256] block, as the kernel computes them: a row of ones times the block's transpose. -/
def rowSums (X : Vec F S512x256 .f32) : FVec F S1x1x512 .f32 := k0_pay2 X

/-- What a device stores: its own block's row sums plus its partner's, as a column. -/
def outOf (X Y : Vec F S512x256 .f32) : FVec F S512x1 .f32 := k0_pay1 (rowSums X) (rowSums Y)

end Cert.KernelIdeal.Pair

end
-- ==== Proof.Proto.lean ====
/-
  The frame and the value of the kernel on the 2x2 mesh, at any float instance.

  The devices work in pairs (a device and its partner in the same mesh row). Each device's exchange buffer has two
  slots: slot 0 receives the row sums of the device's own input block, slot 1 is where the partner's row sums land.
  Protocol, per device c with partner p:
    barrier cell of c   : one duty, one unit, paid by p's entry signal; it hands c the ownership of p's slot 1
                          (p is inside the kernel, so its exchange buffer is live);
    send cell of c      : one duty, the transfer's credit, paid when the transfer has read c's slot 0; it hands back
                          the half share of slot 0 lent to the transfer;
    receive cell of c   : one duty, the transfer's credit, paid when p's transfer has landed in c's slot 1; it hands c
                          its slot 1 holding p's row sums.
  A device owes p's barrier cell one unit and p's receive cell the credit; it waits on its barrier cell (level 1)
  while owing only a receive cell (level 2), and on its receive and send cells owing nothing: no cycle of waits.
-/
import proofs.«901100_g7700000000001101_dist_sum_ax1_xy_m512_n256_v7x_xy2x2_bf16_1_alg».proof.Proof.Pair
import proofs.«901100_g7700000000001101_dist_sum_ax1_xy_m512_n256_v7x_xy2x2_bf16_1_alg».proof.Proof.Gen.KernelIdeal.Launch
import proofs.«901100_g7700000000001101_dist_sum_ax1_xy_m512_n256_v7x_xy2x2_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the pairs' own (one duty per cell) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def pairing : Dev nD ≃ Dev nD := ⟨peer, peer, peer_peer, peer_peer⟩

/-! ## Memrefs, slots and cells -/

abbrev xM : Memref sig .tc .vmem S512x256 .f32 := Memref.whole cc0_stg0_0
abbrev oM : Memref sig .tc .vmem S512x1 .f32 := Memref.whole cc0_stg1_0
abbrev sM : Memref sig .tc .vmem S2x1x512 .f32 := Memref.whole cc0_scratch0

/-- Slot 0 and slot 1 of the exchange buffer, as rectangles of its shape. -/
abbrev r0 : Rect S2x1x512 := Rect.unit (s := S2x1x512) ![0, 0, 0] S1x1x512.size inb_S2x1x512_S1x1x512_0_0_0
abbrev r1 : Rect S2x1x512 := Rect.unit (s := S2x1x512) ![1, 0, 0] S1x1x512.size inb_S2x1x512_S1x1x512_1_0_0
/-- The transfer's ends: slot 0 here, slot 1 there, each as a [1, 512] memref. -/
abbrev src0 : Memref sig .tc .vmem S1x512 .f32 := (sM.slice r0 (fun _ => rfl)).squeeze S1x512 squeezes_S1x1x512_S1x512
abbrev dst1 : Memref sig .tc .vmem S1x512 .f32 := (sM.slice r1 (fun _ => rfl)).squeeze S1x512 squeezes_S1x1x512_S1x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (dst1 : Memref sig .tc .vmem S1x512 .f32).view.dmaCredit
theorem N_pos : 0 < N := View.dmaCredit_pos _ (by decide)

abbrev scrLoc (c : Dev nD) : Loc nD τ sig := (c : Thread nD τ).loc cc0_scratch0

/-- The two slots' element sets: disjoint, and together the whole buffer. -/
theorem slots_disjoint : Disjoint r0.set r1.set := Rect.unit_disjoint (0 : Fin 3) (.inl (by decide))
theorem slots_cover : r0.set ∪ r1.set = (Finset.univ : Finset S2x1x512.Idx) := by
  ext i
  simp only [Finset.mem_union, Rect.mem_set_unit, Finset.mem_univ, iff_true]
  have h0 : (i 0).val < 2 := (i 0).isLt
  have h1 : (i 1).val < 1 := (i 1).isLt
  have h2 : (i 2).val < 512 := (i 2).isLt
  by_cases h : (i 0).val = 0
  · left; intro a; fin_cases a
    · exact ⟨Nat.zero_le _, by show (i 0).val < 0 + 1; omega⟩
    · exact ⟨Nat.zero_le _, by show (i 1).val < 0 + 1; omega⟩
    · exact ⟨Nat.zero_le _, by show (i 2).val < 0 + 512; omega⟩
  · right; intro a; fin_cases a
    · exact ⟨by show 1 ≤ (i 0).val; omega, by show (i 0).val < 1 + 1; omega⟩
    · exact ⟨Nat.zero_le _, by show (i 1).val < 0 + 1; omega⟩
    · exact ⟨Nat.zero_le _, by show (i 2).val < 0 + 512; omega⟩
theorem r1_eq_compl : r1.set = Finset.univ \ r0.set := by
  rw [← slots_cover, Finset.union_sdiff_cancel_left slots_disjoint]

theorem set_src0 : (src0 : Memref sig .tc .vmem S1x512 .f32).view.set = r0.set := by
  simp only [Memref.view_squeeze, Memref.view_slice, Memref.view_whole, View.set_reshape, View.set_slice_whole]
theorem set_dst1 : (dst1 : Memref sig .tc .vmem S1x512 .f32).view.set = r1.set := by
  simp only [Memref.view_squeeze, Memref.view_slice, Memref.view_whole, View.set_reshape, View.set_slice_whole]
abbrev s0M : Memref sig .tc .vmem r0.shape .f32 := sM.slice r0 (fun _ => rfl)
abbrev s1M : Memref sig .tc .vmem r1.shape .f32 := sM.slice r1 (fun _ => rfl)
theorem set_s0M : (s0M : Memref sig .tc .vmem r0.shape .f32).view.set = r0.set := View.set_slice_whole _ _
theorem set_s1M : (s1M : Memref sig .tc .vmem r1.shape .f32).view.set = r1.set := View.set_slice_whole _ _
theorem set_acc0 : ((sM : Memref sig .tc .vmem S2x1x512 .f32).access r0).set = r0.set := View.set_slice_whole _ _
theorem set_acc1 : ((sM : Memref sig .tc .vmem S2x1x512 .f32).access r1).set = r1.set := View.set_slice_whole _ _

/-! ## Contents -/

/-- Device `c`'s input block, as its staging buffer holds it. -/
def xstg (c : Dev nD) : (cc0_stg0_0 : Ref sig .tc).ty.Contents (Elt F) :=
  (win0_0.blk (0 : Fin 1)).view.read (Elt F) (m ((c : Thread nD τ).loc main_arg0))

/-- Device `c`'s result: its own block's row sums plus its partner's. -/
def outAt (c : Dev nD) : (cc0_stg1_0 : Ref sig .tc).ty.Contents (Elt F) := outOf (xstg m c) (xstg m (peer c))

/-- Slot `r` of device `c`'s exchange buffer, at share `q`, reading `A` through the slot's rectangle. -/
def slotAt (c : Dev nD) (r : Rect S2x1x512) (q : PosShare TreeShare) (A : r.shape.Idx → Elt F .f32) : sProp 𝕄 :=
  iprop(∃ f : Buf (Elt F) (scrLoc c), ⌜((sM : Memref sig .tc .vmem S2x1x512 .f32).access r).read (Elt F) f = A⌝ ∗ (scrLoc c ↦[r.set]{q} f))
/-- The same at whatever contents, whole share. -/
def slotAny (c : Dev nD) (r : Rect S2x1x512) : sProp 𝕄 :=
  iprop(∃ f : Buf (Elt F) (scrLoc c), scrLoc c ↦[r.set]{fullShare} f)

omit [FloatOps F] in
instance slotAt_storable (c : Dev nD) (r : Rect S2x1x512) (q : PosShare TreeShare) (A : r.shape.Idx → Elt F .f32) :
    BI.Storable (upEmb : UEmb _ 𝕄) (slotAt (F := F) c r q A) := by unfold slotAt; infer_instance
omit [FloatOps F] in
instance slotAny_storable (c : Dev nD) (r : Rect S2x1x512) : BI.Storable (upEmb : UEmb _ 𝕄) (slotAny (F := F) c r) := by
  unfold slotAny; infer_instance

/-! ## The schedule -/

/-- The partner's entry signal hands `c` the partner's slot 1, to land its transfer in. -/
def barPay (c : Dev nD) : sProp 𝕄 := slotAny (peer c) r1
/-- The landing hands `c` its slot 1 holding the partner's row sums. -/
def recvPay (c : Dev nD) : sProp 𝕄 := slotAt c r1 fullShare (rowSums (xstg m (peer c)))
/-- The transfer done reading hands back the half share of slot 0 lent to it. -/
def sendPay (c : Dev nD) : sProp 𝕄 := slotAt c r0 fullShare.right (rowSums (xstg m c))

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: a barrier cell's of one unit, a send or receive cell's of the transfer's credit. -/
def pairRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m).duties (barCell c) 0 = {()} := by dsimp only [pairRd]; exact if_pos ⟨rfl, .inl ⟨rfl, rfl⟩⟩
theorem duties_send : (pairRd (F := F) m).duties (sendCell c) 0 = {()} := by
  dsimp only [pairRd]; exact if_pos ⟨rfl, .inr ⟨rfl, .inl rfl⟩⟩
theorem duties_recv : (pairRd (F := F) m).duties (recvCell c) 0 = {()} := by
  dsimp only [pairRd]; exact if_pos ⟨rfl, .inr ⟨rfl, .inr rfl⟩⟩
theorem duties_later (g : GSem nD τ sig) : ∀ r, 1 ≤ r → (pairRd (F := F) m).duties g r = ∅ :=
  fun r hr => by dsimp only [pairRd]; rw [if_neg fun h => by omega]

theorem amount_bar (d : Unit) : (pairRd (F := F) m).amount (barCell c) 0 d = 1 := by dsimp only [pairRd]; exact if_pos rfl
theorem amount_send (d : Unit) : (pairRd (F := F) m).amount (sendCell c) 0 d = N := by dsimp only [pairRd]; exact if_neg send_ne_bar
theorem amount_recv (d : Unit) : (pairRd (F := F) m).amount (recvCell c) 0 d = N := by dsimp only [pairRd]; exact if_neg recv_ne_bar

theorem expect_bar : (pairRd (F := F) m).expect (barCell c) 0 = 1 := by
  unfold Schedule.expect Schedule.amountOf; rw [duties_bar, Finset.sum_singleton, amount_bar]
theorem expect_send : (pairRd (F := F) m).expect (sendCell c) 0 = N := by
  unfold Schedule.expect Schedule.amountOf; rw [duties_send, Finset.sum_singleton, amount_send]
theorem expect_recv : (pairRd (F := F) m).expect (recvCell c) 0 = N := by
  unfold Schedule.expect Schedule.amountOf; rw [duties_recv, Finset.sum_singleton, amount_recv]

theorem payload_bar (d : Unit) : (pairRd (F := F) m).payload (barCell c) 0 d = barPay c := by dsimp only [pairRd]; rw [if_pos rfl]
theorem payload_send (d : Unit) : (pairRd (F := F) m).payload (sendCell c) 0 d = sendPay m c := by
  dsimp only [pairRd]; rw [if_neg send_ne_bar, if_neg send_ne_recv, if_pos rfl]
theorem payload_recv (d : Unit) : (pairRd (F := F) m).payload (recvCell c) 0 d = recvPay m c := by
  dsimp only [pairRd]; rw [if_neg recv_ne_bar, if_pos rfl]

theorem rest_bar : bigSep ((pairRd (F := F) m).duties (barCell c) 0 \ ∅) (fun d => (pairRd (F := F) m).payload (barCell c) 0 d) = barPay c := by
  rw [Finset.sdiff_empty, duties_bar, bigSep_singleton, payload_bar]
theorem rest_send : bigSep ((pairRd (F := F) m).duties (sendCell c) 0 \ ∅) (fun d => (pairRd (F := F) m).payload (sendCell c) 0 d) = sendPay m c := by
  rw [Finset.sdiff_empty, duties_send, bigSep_singleton, payload_send]
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Sched

/-! ## What each device owes at launch; the levels -/

/-- Device `c` owes its partner's receive cell the credit and its partner's barrier cell one unit (the signal, paid
    first, is the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device `c`'s body opens: its own three, its partner's barrier and receive cells. -/
def invs (K : Dev nD × Fin 3 → ℕ) (c : Dev nD) : sProp 𝕄 :=
  iprop(cellInv ER (pairRd m) (K (c, 0)) (barCell c) ∗ cellInv ER (pairRd m) (K (c, 1)) (sendCell c) ∗ cellInv ER (pairRd m) (K (c, 2)) (recvCell c)
    ∗ cellInv ER (pairRd m) (K (peer c, 0)) (barCell (peer c)) ∗ cellInv ER (pairRd m) (K (peer c, 2)) (recvCell (peer c)))

instance invs_persistent (K : Dev nD × Fin 3 → ℕ) (c : Dev nD) : BI.Persistent (invs m K c) := by unfold invs; infer_instance

/-- The ghost state device `c` starts from: the invariants; its positions at round 0 of its three cells; round 0 reached
    on the cells it pays; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0
    ∗ dutyTok ER (barCell (peer c)) 0 () ∗ dutyTok ER (recvCell (peer c)) 0 () ∗ dutyTok ER (sendCell c) 0 ())

def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f : Buf (Elt F) (scrLoc c), scrLoc c ↦{fullShare} f)
/-- After the point: the exchange buffer whole again, the two own cells closed at zero. -/
def Φ₁ (c : Dev nD) : sProp 𝕄 := iprop((∃ f : Buf (Elt F) (scrLoc c), scrLoc c ↦{fullShare} f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Proto

end
-- ==== Proof.Body.lean ====
/-
  One device's kernel body, stepped from the pairs' invariant: the entry signal hands the partner this device's
  slot 1; the row sums go into slot 0; the barrier wait brings the partner's slot 1; the transfer lends half of
  slot 0 and lands in the partner's slot 1; after the receive wait both slots are read and the sum stored; the send
  wait brings the lent half back and the exchange buffer is whole again.
-/
import proofs.«901100_g7700000000001101_dist_sum_ax1_xy_m512_n256_v7x_xy2x2_bf16_1_alg».proof.Proof.Proto

noncomputable section

namespace Cert.KernelIdeal.Proto

open Cert.KernelIdeal Cert.KernelIdeal.Gen Cert.KernelIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body

variable (K : Dev nD × Fin 3 → ℕ)

attribute [local sl_canon] dev1_eq dev2_eq
attribute [local sl_rounds] duties_bar duties_send duties_recv amount_bar amount_send amount_recv payload_bar payload_send payload_recv expect_bar expect_send expect_recv

abbrev rx : Rect S512x256 := Rect.unit (s := S512x256) ![0, 0] S512x256.size inb_S512x256_S512x256_0_0
abbrev ro : Rect S512x1 := Rect.unit (s := S512x1) ![0, 0] S512x1.size inb_S512x1_S512x1_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S512x1 .f32).access ro : View sig .tc _ _ _).write (Elt F) f w Finset.univ = w :=
  Memref.write_access_unit_zero_univ (Elt F) cc0_stg1_0 hz2 _ f w

/-- Written through one reshaped view what another view of the same shape, reshaped alike, reads: read back through
    the first view unreshaped, it is what the second reads (the two reshapes index the elements in one order). -/
theorem read_write_reshape {κ : Kind} {sp : Space} {s s' : Shape} {e : EltTy} {Val : EltTy → Type} (v v' : View sig κ sp s e) (h : s'.numel = s.numel)
    (fd : v.ty.Contents Val) (fs : v'.ty.Contents Val) :
    v.read Val ((v.reshape s' h).write Val fd ((v'.reshape s' h).read Val fs) Finset.univ) = v'.read Val fs := by
  funext x
  obtain ⟨y, rfl⟩ := (Shape.reshapeEquiv h).surjective x
  rw [View.read_apply, show v.emb ((Shape.reshapeEquiv h) y) = (v.reshape s' h).emb y from rfl,
    View.write_emb_of_mem _ _ (Finset.mem_univ y), cast_cast, cast_eq]
  rfl

omit [FloatOps F] in
/-- What lands in the partner's slot 1 reads there as this device's slot 0 reads here. -/
theorem landed_read (fd fs : (cc0_scratch0 : Ref sig .tc).ty.Contents (Elt F)) :
    ((sM : Memref sig .tc .vmem S2x1x512 .f32).access r1).read (Elt F)
        ((dst1 : Memref sig .tc .vmem S1x512 .f32).view.write (Elt F) fd ((src0 : Memref sig .tc .vmem S1x512 .f32).view.read (Elt F) fs) Finset.univ)
      = ((sM : Memref sig .tc .vmem S2x1x512 .f32).access r0).read (Elt F) fs :=
  read_write_reshape (Val := Elt F) ((sM : Memref sig .tc .vmem S2x1x512 .f32).view.slice r1) ((sM : Memref sig .tc .vmem S2x1x512 .f32).view.slice r0) _ fd fs

/-- The transfer at the pairs' cells, addressed to `n = peer c`: it lends the right half of slot 0, whose contents
    read as this device's row sums, and lands in the partner's slot 1. -/
theorem wp_send_pair (c n : Dev nD) (hn : n = peer c)
    {hsc : (dst1 : Memref sig (Dev.tc n : Thread nD τ).2.kind .vmem S1x512 .f32).view.ref.isScScratch = false}
    {hsrc : (src0 : Memref sig .tc .vmem S1x512 .f32).view.WordExact} {hdst : (dst1 : Memref sig .tc .vmem S1x512 .f32).view.WordExact}
    {hsem : DmaTarget.Typed .vmem (.dma recvS.sem) (.remote (Dev.tc n : Thread nD τ) (dst1 : Memref sig .tc .vmem S1x512 .f32) (.dma sendS.sem) hsc)}
    {α : Type} {Q : α → sProp 𝕄} {k : PUnit → Prog (TpuEff nD τ sig (Elt F) Λ₀ .tc) α}
    (fs : Buf (Elt F) (scrLoc c)) (hfs : ((sM : Memref sig .tc .vmem S2x1x512 .f32).access r0).read (Elt F) fs = rowSums (xstg m c))
    (fn : Buf (Elt F) (scrLoc (peer c))) (W : Waits sig Unit) :
    iprop(cellInv ER (pairRd m) (K (c, 1)) (sendCell c) ∗ cellInv ER (pairRd m) (K (peer c, 2)) (recvCell (peer c))
        ∗ ((src0 : Memref sig .tc .vmem S1x512 .f32).view.loc (c : Thread nD τ) ↦[(src0 : Memref sig .tc .vmem S1x512 .f32).view.set]{fullShare.right} fs)
        ∗ ((dst1 : Memref sig .tc .vmem S1x512 .f32).view.loc (peer c : Thread nD τ) ↦[(dst1 : Memref sig .tc .vmem S1x512 .f32).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src0 (.remote (Dev.tc n : Thread nD τ) dst1 (.dma sendS.sem) hsc) (.dma recvS.sem) hsrc hdst hsem) k) Q) := by
  subst hn
  exact Rounds.wp_send_pointsTo 𝒱₀ ER (pairRd m) (c : Thread nD τ) none (κ₁ := K (c, 1)) (κ₂ := K (peer c, 2))
    (c' := (Dev.tc (peer c) : Thread nD τ)) (src := src0) (dst := dst1) (q := fullShare.right) (fs := fs)
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slotAt; rw [set_src0]
      iintro H; iexists fs; isplitr
      · ipureintro; exact hfs
      · iexact H)
    (by
      rw [payload_recv]; unfold recvPay slotAt; rw [set_dst1, peer_peer]
      iintro H; iexists _; isplitr
      · ipureintro; exact (landed_read fn fs).trans hfs
      · iexact H)

omit [FloatOps F] in
theorem whole_form (c : Dev nD) (b : Ref sig .tc) (q : PosShare TreeShare) (f : Buf (Elt F) ((c : Thread nD τ).loc b)) :
    ((Memref.whole b : Memref sig .tc _ _ _).view.loc (c : Thread nD τ) ↦[(Memref.whole b : Memref sig .tc _ _ _).view.set]{q} f : sProp 𝕄)
      = ((c : Thread nD τ).loc b ↦{q} f) := by rw [View.set_whole]
omit [FloatOps F] in
theorem slot0_form (c : Dev nD) (q : PosShare TreeShare) (f : Buf (Elt F) (scrLoc c)) :
    ((s0M : Memref sig .tc .vmem _ .f32).view.loc (c : Thread nD τ) ↦[(s0M : Memref sig .tc .vmem _ .f32).view.set]{q} f : sProp 𝕄)
      = (scrLoc c ↦[r0.set]{q} f) := by rw [set_s0M]
omit [FloatOps F] in
theorem slot1_form (c : Dev nD) (q : PosShare TreeShare) (f : Buf (Elt F) (scrLoc c)) :
    ((s1M : Memref sig .tc .vmem _ .f32).view.loc (c : Thread nD τ) ↦[(s1M : Memref sig .tc .vmem _ .f32).view.set]{q} f : sProp 𝕄)
      = (scrLoc c ↦[r1.set]{q} f) := by rw [set_s1M]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f : Buf (Elt F) (scrLoc c), scrLoc c ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c, dev2_eq c]
  -- the exchange buffer by slots
  ihave Hs := (pointsTo_split_subset (Finset.subset_univ r0.set)).1 $$ Hscr
  icases Hs with ⟨Hs0, Hs1⟩
  rw [← r1_eq_compl]
  ihave Hp1 := (show (scrLoc c ↦[r1.set]{fullShare} f0 : sProp 𝕄) ⊢ barPay (peer c) from by
    unfold barPay slotAny; rw [peer_peer]; iintro H; iexists f0; iexact H) $$ Hs1
  unfold O₀
  ihave Hx := (Entails.of_eq (show (c.tc.loc cc0_stg0_0 ↦{fullShare} xstg m c : sProp 𝕄)
      = ((xM : Memref sig .tc .vmem S512x256 .f32).view.loc (c : Thread nD τ) ↦[(xM : Memref sig .tc .vmem S512x256 .f32).view.set]{fullShare} xstg m c) from by rw [View.set_whole])) $$ Hx
  ihave Hout := (Entails.of_eq (show (c.tc.loc cc0_stg1_0 ↦{fullShare} g1 : sProp 𝕄)
      = ((oM : Memref sig .tc .vmem S512x1 .f32).view.loc (c : Thread nD τ) ↦[(oM : Memref sig .tc .vmem S512x1 .f32).view.set]{fullShare} g1) from by rw [View.set_whole])) $$ Hout
  ihave Hs0 := (Entails.of_eq (show (scrLoc c ↦[r0.set]{fullShare} f0 : sProp 𝕄)
      = ((s0M : Memref sig .tc .vmem _ .f32).view.loc (c : Thread nD τ) ↦[(s0M : Memref sig .tc .vmem _ .f32).view.set]{fullShare} f0) from by rw [set_s0M])) $$ Hs0
  sl_exec
  ihave Hmw := (mayWait_bar (F := F) c) $$ Hlev
  sl_exec
  -- the partner's slot 1, and half of slot 0 for the transfer to read
  unfold barPay slotAny
  icases HatB_pay1 with ⟨%fn, Hp1⟩
  ihave Hs := (pointsTo_share (PosShare.mem_left_op_right fullShare)).1 $$ Hs0
  icases Hs with ⟨Hs0L, Hs0R⟩
  ihave Hsrc := (Entails.of_eq (show (View.loc (c : Thread nD τ) (s0M : Memref sig .tc .vmem _ .f32).view ↦[(s0M : Memref sig .tc .vmem _ .f32).view.set]{fullShare.right} sound_body.sl.Hs0_w1 m c f0 : sProp 𝕄)
      = ((src0 : Memref sig .tc .vmem S1x512 .f32).view.loc (c : Thread nD τ) ↦[(src0 : Memref sig .tc .vmem S1x512 .f32).view.set]{fullShare.right} sound_body.sl.Hs0_w1 m c f0) from by rw [set_s0M, set_src0])) $$ Hs0R
  ihave Hdst := (Entails.of_eq (show (scrLoc (peer c) ↦[r1.set]{fullShare} fn : sProp 𝕄)
      = ((dst1 : Memref sig .tc .vmem S1x512 .f32).view.loc (peer c : Thread nD τ) ↦[(dst1 : Memref sig .tc .vmem S1x512 .f32).view.set]{fullShare} fn) from by rw [set_dst1])) $$ Hp1
  have hfs : ((sM : Memref sig .tc .vmem S2x1x512 .f32).access r0).read (Elt F) (sound_body.sl.Hs0_w1 m c f0) = rowSums (xstg m c) := by
    sl_unfold_words
    exact (View.read_write_univ _ _).trans (congrArg k0_pay2 (read_x _))
  -- the transfer into the partner's slot 1
  iapply (wp_send_pair m K c _ (dev2_eq c) (sound_body.sl.Hs0_w1 m c f0) hfs fn _) $$ [Hsrc Hdst HO HtS HtVP]
  · isplitr; · iexact HIsnd
    isplitr; · iexact HIrcvP
    isplitl [Hsrc]; · iexact Hsrc
    isplitl [Hdst]; · iexact Hdst
    isplitl [HO]; · iexact HO
    isplitl [HtS]; · iexact HtS
    isplitr; · iexact HrS
    isplitl [HtVP]; · iexact HtVP
    iexact HrVP
  iintro ⟨HcS, HO⟩
  sl_exec
  -- slot 1 holds the partner's row sums
  unfold recvPay slotAt
  icases HatV_pay1 with ⟨%fl, %hfl, Hs1⟩
  ihave Hs1 := (Entails.of_eq (show (scrLoc c ↦[r1.set]{fullShare} fl : sProp 𝕄)
      = ((s1M : Memref sig .tc .vmem _ .f32).view.loc (c : Thread nD τ) ↦[(s1M : Memref sig .tc .vmem _ .f32).view.set]{fullShare} fl) from by rw [set_s1M])) $$ Hs1
  sl_exec
  -- the two own cells close
  imod (Rounds.cell_close ER (pairRd m) (Set.mem_univ (K (c, 1))) (fun h => h) (R := 0 + 1) (duties_later m (sendCell c))) $$ [HatS] with HzS
  · isplitr; · iexact HIsnd
    iexact HatS
  imod (Rounds.cell_close ER (pairRd m) (Set.mem_univ (K (c, 2))) (fun h => h) (R := 0 + 1) (duties_later m (recvCell c))) $$ [HatV] with HzV
  · isplitr; · iexact HIrcv
    iexact HatV
  -- the lent half of slot 0 comes back: the two halves hold the same contents
  unfold sendPay slotAt
  icases HatS_pay1 with ⟨%fr, %hfr, Hs0R⟩
  ihave Hs0L := (Entails.of_eq (slot0_form c fullShare.left (sound_body.sl.Hs0_w1 m c f0))) $$ Hs0L
  ihave Hag := (persistent_entails_right pointsTo_agree) $$ [Hs0L Hs0R]
  · isplitl [Hs0L]; · iexact Hs0L
    iexact Hs0R
  icases Hag with ⟨%hag, Hs0L, Hs0R⟩
  ihave Hs0R := (Entails.of_eq (pointsTo_congr (f := fr) (g := sound_body.sl.Hs0_w1 m c f0) fun i hi => (hag i (Finset.mem_inter.mpr ⟨hi, hi⟩)).1.symm)) $$ Hs0R
  ihave Hs0 := (pointsTo_share (PosShare.mem_left_op_right fullShare)).2 $$ [Hs0L Hs0R]
  · isplitl [Hs0L]; · iexact Hs0L
    iexact Hs0R
  -- the exchange buffer whole again
  ihave Hs1 := (Entails.of_eq ((slot1_form c fullShare fl).trans (by rw [r1_eq_compl]))) $$ Hs1
  ihave Hscr := (pointsTo_join_subset (ℓ := scrLoc c) (I := r0.set) (S := Finset.univ) (q := fullShare)
      (g := sound_body.sl.Hs0_w1 m c f0) (f := fl) (Finset.subset_univ _)) $$ [Hs0 Hs1]
  · isplitl [Hs0]; · iexact Hs0
    iexact Hs1
  ihave Hx := (Entails.of_eq (whole_form c cc0_stg0_0 fullShare (xstg m c))) $$ Hx
  ihave Hout := (Entails.of_eq (whole_form c cc0_stg1_0 fullShare _)) $$ Hout
  rw [wp_ret]; imodintro
  iapply Hk
  unfold bodyPost Φ₁ Dat.owesAt Pipeline.owesWithin
  rw [show (dats m 0 c).owed t₀.succ = 0 from rfl]
  isplitl [Hscr HzS HzV]
  · isplitl [Hscr]; · iexists _; iexact Hscr
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr
  · ipureintro
    exact (write_out g1 _).trans (congrArg₂ k0_pay1 (congrArg k0_pay2 (read_x _)) hfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`: the body from the pipeline's invariant at the one grid point. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Proto.body_obligation' depends on axioms: [propext, Classical.choice, Quot.sound] -/
#guard_msgs in #print axioms body_obligation

end Body

end Cert.KernelIdeal.Proto

end
-- ==== Proof.Launch.lean ====
/-
  The launch of the pairs' protocol on the four devices. The launch element deals every device the round states,
  positions and duty tokens of its own three cells. Under one update all devices' semaphores at zero become the cells'
  invariants, and the duty tokens go to the devices that pay them: a barrier cell's and a receive cell's token to the
  partner, a send cell's stays. The credit owed at launch arrives at the cell it is owed to: a barrier cell is owed
  one unit and a receive cell the transfer's credit, both by the partner. Given the body's obligation, the four
  kernels run to the end and every device's arrays end as the pipeline's proof data say: the input block unchanged,
  the result holding the own block's row sums plus the partner's.
-/
import proofs.«901100_g7700000000001101_dist_sum_ax1_xy_m512_n256_v7x_xy2x2_bf16_1_alg».proof.Proof.Proto

noncomputable section

namespace Cert.KernelIdeal.Proto

open Cert.KernelIdeal Cert.KernelIdeal.Gen Cert.KernelIdeal.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it deals -/

theorem ownSemFacts : Pipeline.OwnSemFacts cfg0.spec osem := by decide

theorem share_eq (c : Dev nD) (w : Fin cfg0.W) : (dats (F := F) m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The twelve cells of the pairs' protocol: every device's barrier, send and receive cell. -/
def pairCells : Finset (GSem nD τ sig) := Finset.univ.map ⟨kcell, kcell_injective⟩

/-- A device's own cells' duty tokens as minted: one a cell, at round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, positions, reached marks and tokens. -/
def G (c : Dev nD) : sProp 𝕄 :=
  iprop((bigSep Finset.univ fun k : Fin 3 => roundState ER (pairRd m) (kcell (c, k)) 0)
    ∗ (bigSep Finset.univ fun k : Fin 3 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore is the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device's three semaphores at zero and round states become its three cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m) (kcell (c, k)) 0)
      ⊢ (|={Set.univ}=> bigSep Finset.univ fun k => iprop(∃ κ : ℕ, cellInv ER (pairRd m) κ (kcell (c, k))) : sProp 𝕄) from by
        rw [← bigSep_sep']
        exact (bigSep_mono fun k _ => (Rounds.body_intro ER (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- All twelve cells' invariants at the names `K`, and round 0 reached on every cell. -/
def records (K : Dev nD × Fin 3 → ℕ) : sProp 𝕄 :=
  iprop((bigSep Finset.univ fun ck : Dev nD × Fin 3 => cellInv ER (pairRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (pairRd m) (K ck) (kcell ck) : sProp 𝕄)) ⊢ cellInv ER (pairRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` pays: its partner's barrier and receive cells', its own send cell's. -/
def payToks (c : Dev nD) : sProp 𝕄 :=
  iprop(dutyTok ER (barCell (peer c)) 0 () ∗ dutyTok ER (recvCell (peer c)) 0 () ∗ dutyTok ER (sendCell c) 0 ())
/-- What stays with device `c`: its positions and those tokens. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitl [HtB]; · iexact HtB
  isplitl [HtV]; · iexact HtV
  iexact HtS

/-- The tokens dealt across the pairs: a barrier cell's and a receive cell's token go to the partner (the pairing is
    an involution, so summing over partners is summing over devices); a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (pairRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: one unit if `d` is `c`'s partner (its entry signal). -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply,
    Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: the transfer's credit if `d` is `c`'s partner. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)),
    Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

/-- A device's launch credit: its barrier cell's one unit and its receive cell's transfer credit. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀
  iintro ⟨Hs, -, Hr⟩
  isplitl [Hs]; · iexact Hs
  iexact Hr

theorem phi1_exit (c : Dev nD) :
    (dats (F := F) m 0 c).Φ (Fin.last cfg0.N) ⊢ iprop(emp ∗ Pipeline.ownSems0 osem c ∗ Pipeline.scopedRest cfg0.spec c) := by
  rw [show (dats (F := F) m 0 c).Φ (Fin.last cfg0.N) = Φ₁ (F := F) c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats (F := F) m) () 0 c :=
  Pipeline.cellsWaits_intro cfgs (dats (F := F) m) () 0 c fun w s t =>
    mayWait_stage c _ (by fin_cases w <;> fin_cases s <;> decide) _ (by
      rcases t with ⟨_ | _, ht⟩
      · exact Or.inl rfl
      · exact Or.inr rfl)

/-! ### The run -/

/-- Each window's array after the last point. -/
def finalA (c : Dev nD) (w : Fin cfg0.W) : Buf (Elt F) ((cfg0.win w).arr.view.loc (c : Thread nD τ)) := (dats (F := F) m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: given the body's
    obligation on every device, every weakly fair execution of @main — the four kernels handshaking in pairs on the
    barrier semaphore, then exchanging their row sums — terminates, and in every final state each device's arrays hold
    what the proof data say. -/
theorem run_of_body (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The final arrays -/

/-- The input block after the run holds what it held. -/
theorem finalA_x (c : Dev nD) : finalA m c (0 : Fin 2) = m ((c : Thread nD τ).loc main_arg0) :=
  (dats (F := F) m 0 c).arrAt_in (0 : Fin 2) rfl _

/-- The result array after the run: the one point's write-back covers the whole [512, 1] array, so it holds what the
    body left in the staging buffer — the own block's row sums plus the partner's. -/
theorem finalA_out (c : Dev nD) : finalA m c (1 : Fin 2) = outAt m c := by
  unfold finalA
  rw [show cfg0.N = (t₀ : Fin cfg0.N).val + 1 from cfg0_N, Dat.arrAt_succ, if_pos (flush0_1 t₀)]
  exact Memref.write_access_unit_zero_univ (Elt F) main_v1 (funext fun a => Nat.zero_mul _) _ _ _

/-- info: 'Cert.KernelIdeal.Proto.run_of_body' depends on axioms: [propext, Classical.choice, Quot.sound] -/
#guard_msgs in #print axioms run_of_body

end Cert.KernelIdeal.Proto

end
-- ==== Proof.Bits.Pair.lean ====
/-
  The devices work in pairs: a device's partner sits in the same mesh row, in the other column. This module names the
  partner, shows that the kernel's two device-id chains both compute it, and names the result a device stores as a
  function of its own input block and its partner's.
-/
import proofs.«901100_g7700000000001101_dist_sum_ax1_xy_m512_n256_v7x_xy2x2_bf16_1_alg».proof.Proof.Gen.Kernel.Skeleton

noncomputable section

namespace Cert.Kernel.Pair

open Cert.Kernel Cert.Kernel.Gen
open Idealize.ShloMosaic

variable {F : FTy → Type} [FloatOps F]

/-- The partner of device `c` at mesh position (c / 2, c % 2): the device at (c / 2, 1 - c % 2). -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide
theorem peer_val (c : Dev nD) : (peer c).val = (2 * (c.val / 2) + 1) - (c.val % 2) := rfl

/-- Both device-id chains of the kernel (the signal's and the transfer's) name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The row sums of a [512, 256] block, as the kernel computes them: a row of ones times the block's transpose. -/
def rowSums (X : Vec F S512x256 .f32) : FVec F S1x1x512 .f32 := k0_pay2 X

/-- What a device stores: its own block's row sums plus its partner's, as a column. -/
def outOf (X Y : Vec F S512x256 .f32) : FVec F S512x1 .f32 := k0_pay1 (rowSums X) (rowSums Y)

end Cert.Kernel.Pair

end
-- ==== Proof.Bits.Proto.lean ====
/-
  The frame and the value of the kernel on the 2x2 mesh, at any float instance.

  The devices work in pairs (a device and its partner in the same mesh row). Each device's exchange buffer has two
  slots: slot 0 receives the row sums of the device's own input block, slot 1 is where the partner's row sums land.
  Protocol, per device c with partner p:
    barrier cell of c   : one duty, one unit, paid by p's entry signal; it hands c the ownership of p's slot 1
                          (p is inside the kernel, so its exchange buffer is live);
    send cell of c      : one duty, the transfer's credit, paid when the transfer has read c's slot 0; it hands back
                          the half share of slot 0 lent to the transfer;
    receive cell of c   : one duty, the transfer's credit, paid when p's transfer has landed in c's slot 1; it hands c
                          its slot 1 holding p's row sums.
  A device owes p's barrier cell one unit and p's receive cell the credit; it waits on its barrier cell (level 1)
  while owing only a receive cell (level 2), and on its receive and send cells owing nothing: no cycle of waits.
-/
import proofs.«901100_g7700000000001101_dist_sum_ax1_xy_m512_n256_v7x_xy2x2_bf16_1_alg».proof.Proof.Bits.Pair
import proofs.«901100_g7700000000001101_dist_sum_ax1_xy_m512_n256_v7x_xy2x2_bf16_1_alg».proof.Proof.Gen.Kernel.Launch
import proofs.«901100_g7700000000001101_dist_sum_ax1_xy_m512_n256_v7x_xy2x2_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the pairs' own (one duty per cell) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def pairing : Dev nD ≃ Dev nD := ⟨peer, peer, peer_peer, peer_peer⟩

/-! ## Memrefs, slots and cells -/

abbrev xM : Memref sig .tc .vmem S512x256 .f32 := Memref.whole cc0_stg0_0
abbrev oM : Memref sig .tc .vmem S512x1 .f32 := Memref.whole cc0_stg1_0
abbrev sM : Memref sig .tc .vmem S2x1x512 .f32 := Memref.whole cc0_scratch0

/-- Slot 0 and slot 1 of the exchange buffer, as rectangles of its shape. -/
abbrev r0 : Rect S2x1x512 := Rect.unit (s := S2x1x512) ![0, 0, 0] S1x1x512.size inb_S2x1x512_S1x1x512_0_0_0
abbrev r1 : Rect S2x1x512 := Rect.unit (s := S2x1x512) ![1, 0, 0] S1x1x512.size inb_S2x1x512_S1x1x512_1_0_0
/-- The transfer's ends: slot 0 here, slot 1 there, each as a [1, 512] memref. -/
abbrev src0 : Memref sig .tc .vmem S1x512 .f32 := (sM.slice r0 (fun _ => rfl)).squeeze S1x512 squeezes_S1x1x512_S1x512
abbrev dst1 : Memref sig .tc .vmem S1x512 .f32 := (sM.slice r1 (fun _ => rfl)).squeeze S1x512 squeezes_S1x1x512_S1x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (dst1 : Memref sig .tc .vmem S1x512 .f32).view.dmaCredit
theorem N_pos : 0 < N := View.dmaCredit_pos _ (by decide)

abbrev scrLoc (c : Dev nD) : Loc nD τ sig := (c : Thread nD τ).loc cc0_scratch0

/-- The two slots' element sets: disjoint, and together the whole buffer. -/
theorem slots_disjoint : Disjoint r0.set r1.set := Rect.unit_disjoint (0 : Fin 3) (.inl (by decide))
theorem slots_cover : r0.set ∪ r1.set = (Finset.univ : Finset S2x1x512.Idx) := by
  ext i
  simp only [Finset.mem_union, Rect.mem_set_unit, Finset.mem_univ, iff_true]
  have h0 : (i 0).val < 2 := (i 0).isLt
  have h1 : (i 1).val < 1 := (i 1).isLt
  have h2 : (i 2).val < 512 := (i 2).isLt
  by_cases h : (i 0).val = 0
  · left; intro a; fin_cases a
    · exact ⟨Nat.zero_le _, by show (i 0).val < 0 + 1; omega⟩
    · exact ⟨Nat.zero_le _, by show (i 1).val < 0 + 1; omega⟩
    · exact ⟨Nat.zero_le _, by show (i 2).val < 0 + 512; omega⟩
  · right; intro a; fin_cases a
    · exact ⟨by show 1 ≤ (i 0).val; omega, by show (i 0).val < 1 + 1; omega⟩
    · exact ⟨Nat.zero_le _, by show (i 1).val < 0 + 1; omega⟩
    · exact ⟨Nat.zero_le _, by show (i 2).val < 0 + 512; omega⟩
theorem r1_eq_compl : r1.set = Finset.univ \ r0.set := by
  rw [← slots_cover, Finset.union_sdiff_cancel_left slots_disjoint]

theorem set_src0 : (src0 : Memref sig .tc .vmem S1x512 .f32).view.set = r0.set := by
  simp only [Memref.view_squeeze, Memref.view_slice, Memref.view_whole, View.set_reshape, View.set_slice_whole]
theorem set_dst1 : (dst1 : Memref sig .tc .vmem S1x512 .f32).view.set = r1.set := by
  simp only [Memref.view_squeeze, Memref.view_slice, Memref.view_whole, View.set_reshape, View.set_slice_whole]
abbrev s0M : Memref sig .tc .vmem r0.shape .f32 := sM.slice r0 (fun _ => rfl)
abbrev s1M : Memref sig .tc .vmem r1.shape .f32 := sM.slice r1 (fun _ => rfl)
theorem set_s0M : (s0M : Memref sig .tc .vmem r0.shape .f32).view.set = r0.set := View.set_slice_whole _ _
theorem set_s1M : (s1M : Memref sig .tc .vmem r1.shape .f32).view.set = r1.set := View.set_slice_whole _ _
theorem set_acc0 : ((sM : Memref sig .tc .vmem S2x1x512 .f32).access r0).set = r0.set := View.set_slice_whole _ _
theorem set_acc1 : ((sM : Memref sig .tc .vmem S2x1x512 .f32).access r1).set = r1.set := View.set_slice_whole _ _

/-! ## Contents -/

/-- Device `c`'s input block, as its staging buffer holds it. -/
def xstg (c : Dev nD) : (cc0_stg0_0 : Ref sig .tc).ty.Contents (Elt F) :=
  (win0_0.blk (0 : Fin 1)).view.read (Elt F) (m ((c : Thread nD τ).loc main_arg0))

/-- Device `c`'s result: its own block's row sums plus its partner's. -/
def outAt (c : Dev nD) : (cc0_stg1_0 : Ref sig .tc).ty.Contents (Elt F) := outOf (xstg m c) (xstg m (peer c))

/-- Slot `r` of device `c`'s exchange buffer, at share `q`, reading `A` through the slot's rectangle. -/
def slotAt (c : Dev nD) (r : Rect S2x1x512) (q : PosShare TreeShare) (A : r.shape.Idx → Elt F .f32) : sProp 𝕄 :=
  iprop(∃ f : Buf (Elt F) (scrLoc c), ⌜((sM : Memref sig .tc .vmem S2x1x512 .f32).access r).read (Elt F) f = A⌝ ∗ (scrLoc c ↦[r.set]{q} f))
/-- The same at whatever contents, whole share. -/
def slotAny (c : Dev nD) (r : Rect S2x1x512) : sProp 𝕄 :=
  iprop(∃ f : Buf (Elt F) (scrLoc c), scrLoc c ↦[r.set]{fullShare} f)

omit [FloatOps F] in
instance slotAt_storable (c : Dev nD) (r : Rect S2x1x512) (q : PosShare TreeShare) (A : r.shape.Idx → Elt F .f32) :
    BI.Storable (upEmb : UEmb _ 𝕄) (slotAt (F := F) c r q A) := by unfold slotAt; infer_instance
omit [FloatOps F] in
instance slotAny_storable (c : Dev nD) (r : Rect S2x1x512) : BI.Storable (upEmb : UEmb _ 𝕄) (slotAny (F := F) c r) := by
  unfold slotAny; infer_instance

/-! ## The schedule -/

/-- The partner's entry signal hands `c` the partner's slot 1, to land its transfer in. -/
def barPay (c : Dev nD) : sProp 𝕄 := slotAny (peer c) r1
/-- The landing hands `c` its slot 1 holding the partner's row sums. -/
def recvPay (c : Dev nD) : sProp 𝕄 := slotAt c r1 fullShare (rowSums (xstg m (peer c)))
/-- The transfer done reading hands back the half share of slot 0 lent to it. -/
def sendPay (c : Dev nD) : sProp 𝕄 := slotAt c r0 fullShare.right (rowSums (xstg m c))

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: a barrier cell's of one unit, a send or receive cell's of the transfer's credit. -/
def pairRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m).duties (barCell c) 0 = {()} := by dsimp only [pairRd]; exact if_pos ⟨rfl, .inl ⟨rfl, rfl⟩⟩
theorem duties_send : (pairRd (F := F) m).duties (sendCell c) 0 = {()} := by
  dsimp only [pairRd]; exact if_pos ⟨rfl, .inr ⟨rfl, .inl rfl⟩⟩
theorem duties_recv : (pairRd (F := F) m).duties (recvCell c) 0 = {()} := by
  dsimp only [pairRd]; exact if_pos ⟨rfl, .inr ⟨rfl, .inr rfl⟩⟩
theorem duties_later (g : GSem nD τ sig) : ∀ r, 1 ≤ r → (pairRd (F := F) m).duties g r = ∅ :=
  fun r hr => by dsimp only [pairRd]; rw [if_neg fun h => by omega]

theorem amount_bar (d : Unit) : (pairRd (F := F) m).amount (barCell c) 0 d = 1 := by dsimp only [pairRd]; exact if_pos rfl
theorem amount_send (d : Unit) : (pairRd (F := F) m).amount (sendCell c) 0 d = N := by dsimp only [pairRd]; exact if_neg send_ne_bar
theorem amount_recv (d : Unit) : (pairRd (F := F) m).amount (recvCell c) 0 d = N := by dsimp only [pairRd]; exact if_neg recv_ne_bar

theorem expect_bar : (pairRd (F := F) m).expect (barCell c) 0 = 1 := by
  unfold Schedule.expect Schedule.amountOf; rw [duties_bar, Finset.sum_singleton, amount_bar]
theorem expect_send : (pairRd (F := F) m).expect (sendCell c) 0 = N := by
  unfold Schedule.expect Schedule.amountOf; rw [duties_send, Finset.sum_singleton, amount_send]
theorem expect_recv : (pairRd (F := F) m).expect (recvCell c) 0 = N := by
  unfold Schedule.expect Schedule.amountOf; rw [duties_recv, Finset.sum_singleton, amount_recv]

theorem payload_bar (d : Unit) : (pairRd (F := F) m).payload (barCell c) 0 d = barPay c := by dsimp only [pairRd]; rw [if_pos rfl]
theorem payload_send (d : Unit) : (pairRd (F := F) m).payload (sendCell c) 0 d = sendPay m c := by
  dsimp only [pairRd]; rw [if_neg send_ne_bar, if_neg send_ne_recv, if_pos rfl]
theorem payload_recv (d : Unit) : (pairRd (F := F) m).payload (recvCell c) 0 d = recvPay m c := by
  dsimp only [pairRd]; rw [if_neg recv_ne_bar, if_pos rfl]

theorem rest_bar : bigSep ((pairRd (F := F) m).duties (barCell c) 0 \ ∅) (fun d => (pairRd (F := F) m).payload (barCell c) 0 d) = barPay c := by
  rw [Finset.sdiff_empty, duties_bar, bigSep_singleton, payload_bar]
theorem rest_send : bigSep ((pairRd (F := F) m).duties (sendCell c) 0 \ ∅) (fun d => (pairRd (F := F) m).payload (sendCell c) 0 d) = sendPay m c := by
  rw [Finset.sdiff_empty, duties_send, bigSep_singleton, payload_send]
theorem rest_recv : bigSep ((pairRd (F := F) m).duties (recvCell c) 0 \ ∅) (fun d => (pairRd (F := F) m).payload (recvCell c) 0 d) = recvPay m c := by
  rw [Finset.sdiff_empty, duties_recv, bigSep_singleton, payload_recv]

end Sched

/-! ## What each device owes at launch; the levels -/

/-- Device `c` owes its partner's receive cell the credit and its partner's barrier cell one unit (the signal, paid
    first, is the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device `c`'s body opens: its own three, its partner's barrier and receive cells. -/
def invs (K : Dev nD × Fin 3 → ℕ) (c : Dev nD) : sProp 𝕄 :=
  iprop(cellInv ER (pairRd m) (K (c, 0)) (barCell c) ∗ cellInv ER (pairRd m) (K (c, 1)) (sendCell c) ∗ cellInv ER (pairRd m) (K (c, 2)) (recvCell c)
    ∗ cellInv ER (pairRd m) (K (peer c, 0)) (barCell (peer c)) ∗ cellInv ER (pairRd m) (K (peer c, 2)) (recvCell (peer c)))

instance invs_persistent (K : Dev nD × Fin 3 → ℕ) (c : Dev nD) : BI.Persistent (invs m K c) := by unfold invs; infer_instance

/-- The ghost state device `c` starts from: the invariants; its positions at round 0 of its three cells; round 0 reached
    on the cells it pays; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0
    ∗ dutyTok ER (barCell (peer c)) 0 () ∗ dutyTok ER (recvCell (peer c)) 0 () ∗ dutyTok ER (sendCell c) 0 ())

def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f : Buf (Elt F) (scrLoc c), scrLoc c ↦{fullShare} f)
/-- After the point: the exchange buffer whole again, the two own cells closed at zero. -/
def Φ₁ (c : Dev nD) : sProp 𝕄 := iprop((∃ f : Buf (Elt F) (scrLoc c), scrLoc c ↦{fullShare} f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Proto

end
-- ==== Proof.Bits.Body.lean ====
/-
  One device's kernel body, stepped from the pairs' invariant: the entry signal hands the partner this device's
  slot 1; the row sums go into slot 0; the barrier wait brings the partner's slot 1; the transfer lends half of
  slot 0 and lands in the partner's slot 1; after the receive wait both slots are read and the sum stored; the send
  wait brings the lent half back and the exchange buffer is whole again.
-/
import proofs.«901100_g7700000000001101_dist_sum_ax1_xy_m512_n256_v7x_xy2x2_bf16_1_alg».proof.Proof.Bits.Proto

noncomputable section

namespace Cert.Kernel.Proto

open Cert.Kernel Cert.Kernel.Gen Cert.Kernel.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body

variable (K : Dev nD × Fin 3 → ℕ)

attribute [local sl_canon] dev1_eq dev2_eq
attribute [local sl_rounds] duties_bar duties_send duties_recv amount_bar amount_send amount_recv payload_bar payload_send payload_recv expect_bar expect_send expect_recv

abbrev rx : Rect S512x256 := Rect.unit (s := S512x256) ![0, 0] S512x256.size inb_S512x256_S512x256_0_0
abbrev ro : Rect S512x1 := Rect.unit (s := S512x1) ![0, 0] S512x1.size inb_S512x1_S512x1_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S512x1 .f32).access ro : View sig .tc _ _ _).write (Elt F) f w Finset.univ = w :=
  Memref.write_access_unit_zero_univ (Elt F) cc0_stg1_0 hz2 _ f w

/-- Written through one reshaped view what another view of the same shape, reshaped alike, reads: read back through
    the first view unreshaped, it is what the second reads (the two reshapes index the elements in one order). -/
theorem read_write_reshape {κ : Kind} {sp : Space} {s s' : Shape} {e : EltTy} {Val : EltTy → Type} (v v' : View sig κ sp s e) (h : s'.numel = s.numel)
    (fd : v.ty.Contents Val) (fs : v'.ty.Contents Val) :
    v.read Val ((v.reshape s' h).write Val fd ((v'.reshape s' h).read Val fs) Finset.univ) = v'.read Val fs := by
  funext x
  obtain ⟨y, rfl⟩ := (Shape.reshapeEquiv h).surjective x
  rw [View.read_apply, show v.emb ((Shape.reshapeEquiv h) y) = (v.reshape s' h).emb y from rfl,
    View.write_emb_of_mem _ _ (Finset.mem_univ y), cast_cast, cast_eq]
  rfl

omit [FloatOps F] in
/-- What lands in the partner's slot 1 reads there as this device's slot 0 reads here. -/
theorem landed_read (fd fs : (cc0_scratch0 : Ref sig .tc).ty.Contents (Elt F)) :
    ((sM : Memref sig .tc .vmem S2x1x512 .f32).access r1).read (Elt F)
        ((dst1 : Memref sig .tc .vmem S1x512 .f32).view.write (Elt F) fd ((src0 : Memref sig .tc .vmem S1x512 .f32).view.read (Elt F) fs) Finset.univ)
      = ((sM : Memref sig .tc .vmem S2x1x512 .f32).access r0).read (Elt F) fs :=
  read_write_reshape (Val := Elt F) ((sM : Memref sig .tc .vmem S2x1x512 .f32).view.slice r1) ((sM : Memref sig .tc .vmem S2x1x512 .f32).view.slice r0) _ fd fs

/-- The transfer at the pairs' cells, addressed to `n = peer c`: it lends the right half of slot 0, whose contents
    read as this device's row sums, and lands in the partner's slot 1. -/
theorem wp_send_pair (c n : Dev nD) (hn : n = peer c)
    {hsc : (dst1 : Memref sig (Dev.tc n : Thread nD τ).2.kind .vmem S1x512 .f32).view.ref.isScScratch = false}
    {hsrc : (src0 : Memref sig .tc .vmem S1x512 .f32).view.WordExact} {hdst : (dst1 : Memref sig .tc .vmem S1x512 .f32).view.WordExact}
    {hsem : DmaTarget.Typed .vmem (.dma recvS.sem) (.remote (Dev.tc n : Thread nD τ) (dst1 : Memref sig .tc .vmem S1x512 .f32) (.dma sendS.sem) hsc)}
    {α : Type} {Q : α → sProp 𝕄} {k : PUnit → Prog (TpuEff nD τ sig (Elt F) Λ₀ .tc) α}
    (fs : Buf (Elt F) (scrLoc c)) (hfs : ((sM : Memref sig .tc .vmem S2x1x512 .f32).access r0).read (Elt F) fs = rowSums (xstg m c))
    (fn : Buf (Elt F) (scrLoc (peer c))) (W : Waits sig Unit) :
    iprop(cellInv ER (pairRd m) (K (c, 1)) (sendCell c) ∗ cellInv ER (pairRd m) (K (peer c, 2)) (recvCell (peer c))
        ∗ ((src0 : Memref sig .tc .vmem S1x512 .f32).view.loc (c : Thread nD τ) ↦[(src0 : Memref sig .tc .vmem S1x512 .f32).view.set]{fullShare.right} fs)
        ∗ ((dst1 : Memref sig .tc .vmem S1x512 .f32).view.loc (peer c : Thread nD τ) ↦[(dst1 : Memref sig .tc .vmem S1x512 .f32).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src0 (.remote (Dev.tc n : Thread nD τ) dst1 (.dma sendS.sem) hsc) (.dma recvS.sem) hsrc hdst hsem) k) Q) := by
  subst hn
  exact Rounds.wp_send_pointsTo 𝒱₀ ER (pairRd m) (c : Thread nD τ) none (κ₁ := K (c, 1)) (κ₂ := K (peer c, 2))
    (c' := (Dev.tc (peer c) : Thread nD τ)) (src := src0) (dst := dst1) (q := fullShare.right) (fs := fs)
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slotAt; rw [set_src0]
      iintro H; iexists fs; isplitr
      · ipureintro; exact hfs
      · iexact H)
    (by
      rw [payload_recv]; unfold recvPay slotAt; rw [set_dst1, peer_peer]
      iintro H; iexists _; isplitr
      · ipureintro; exact (landed_read fn fs).trans hfs
      · iexact H)

omit [FloatOps F] in
theorem whole_form (c : Dev nD) (b : Ref sig .tc) (q : PosShare TreeShare) (f : Buf (Elt F) ((c : Thread nD τ).loc b)) :
    ((Memref.whole b : Memref sig .tc _ _ _).view.loc (c : Thread nD τ) ↦[(Memref.whole b : Memref sig .tc _ _ _).view.set]{q} f : sProp 𝕄)
      = ((c : Thread nD τ).loc b ↦{q} f) := by rw [View.set_whole]
omit [FloatOps F] in
theorem slot0_form (c : Dev nD) (q : PosShare TreeShare) (f : Buf (Elt F) (scrLoc c)) :
    ((s0M : Memref sig .tc .vmem _ .f32).view.loc (c : Thread nD τ) ↦[(s0M : Memref sig .tc .vmem _ .f32).view.set]{q} f : sProp 𝕄)
      = (scrLoc c ↦[r0.set]{q} f) := by rw [set_s0M]
omit [FloatOps F] in
theorem slot1_form (c : Dev nD) (q : PosShare TreeShare) (f : Buf (Elt F) (scrLoc c)) :
    ((s1M : Memref sig .tc .vmem _ .f32).view.loc (c : Thread nD τ) ↦[(s1M : Memref sig .tc .vmem _ .f32).view.set]{q} f : sProp 𝕄)
      = (scrLoc c ↦[r1.set]{q} f) := by rw [set_s1M]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f : Buf (Elt F) (scrLoc c), scrLoc c ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c, dev2_eq c]
  -- the exchange buffer by slots
  ihave Hs := (pointsTo_split_subset (Finset.subset_univ r0.set)).1 $$ Hscr
  icases Hs with ⟨Hs0, Hs1⟩
  rw [← r1_eq_compl]
  ihave Hp1 := (show (scrLoc c ↦[r1.set]{fullShare} f0 : sProp 𝕄) ⊢ barPay (peer c) from by
    unfold barPay slotAny; rw [peer_peer]; iintro H; iexists f0; iexact H) $$ Hs1
  unfold O₀
  ihave Hx := (Entails.of_eq (show (c.tc.loc cc0_stg0_0 ↦{fullShare} xstg m c : sProp 𝕄)
      = ((xM : Memref sig .tc .vmem S512x256 .f32).view.loc (c : Thread nD τ) ↦[(xM : Memref sig .tc .vmem S512x256 .f32).view.set]{fullShare} xstg m c) from by rw [View.set_whole])) $$ Hx
  ihave Hout := (Entails.of_eq (show (c.tc.loc cc0_stg1_0 ↦{fullShare} g1 : sProp 𝕄)
      = ((oM : Memref sig .tc .vmem S512x1 .f32).view.loc (c : Thread nD τ) ↦[(oM : Memref sig .tc .vmem S512x1 .f32).view.set]{fullShare} g1) from by rw [View.set_whole])) $$ Hout
  ihave Hs0 := (Entails.of_eq (show (scrLoc c ↦[r0.set]{fullShare} f0 : sProp 𝕄)
      = ((s0M : Memref sig .tc .vmem _ .f32).view.loc (c : Thread nD τ) ↦[(s0M : Memref sig .tc .vmem _ .f32).view.set]{fullShare} f0) from by rw [set_s0M])) $$ Hs0
  sl_exec
  ihave Hmw := (mayWait_bar (F := F) c) $$ Hlev
  sl_exec
  -- the partner's slot 1, and half of slot 0 for the transfer to read
  unfold barPay slotAny
  icases HatB_pay1 with ⟨%fn, Hp1⟩
  ihave Hs := (pointsTo_share (PosShare.mem_left_op_right fullShare)).1 $$ Hs0
  icases Hs with ⟨Hs0L, Hs0R⟩
  ihave Hsrc := (Entails.of_eq (show (View.loc (c : Thread nD τ) (s0M : Memref sig .tc .vmem _ .f32).view ↦[(s0M : Memref sig .tc .vmem _ .f32).view.set]{fullShare.right} sound_body.sl.Hs0_w1 m c f0 : sProp 𝕄)
      = ((src0 : Memref sig .tc .vmem S1x512 .f32).view.loc (c : Thread nD τ) ↦[(src0 : Memref sig .tc .vmem S1x512 .f32).view.set]{fullShare.right} sound_body.sl.Hs0_w1 m c f0) from by rw [set_s0M, set_src0])) $$ Hs0R
  ihave Hdst := (Entails.of_eq (show (scrLoc (peer c) ↦[r1.set]{fullShare} fn : sProp 𝕄)
      = ((dst1 : Memref sig .tc .vmem S1x512 .f32).view.loc (peer c : Thread nD τ) ↦[(dst1 : Memref sig .tc .vmem S1x512 .f32).view.set]{fullShare} fn) from by rw [set_dst1])) $$ Hp1
  have hfs : ((sM : Memref sig .tc .vmem S2x1x512 .f32).access r0).read (Elt F) (sound_body.sl.Hs0_w1 m c f0) = rowSums (xstg m c) := by
    sl_unfold_words
    exact (View.read_write_univ _ _).trans (congrArg k0_pay2 (read_x _))
  -- the transfer into the partner's slot 1
  iapply (wp_send_pair m K c _ (dev2_eq c) (sound_body.sl.Hs0_w1 m c f0) hfs fn _) $$ [Hsrc Hdst HO HtS HtVP]
  · isplitr; · iexact HIsnd
    isplitr; · iexact HIrcvP
    isplitl [Hsrc]; · iexact Hsrc
    isplitl [Hdst]; · iexact Hdst
    isplitl [HO]; · iexact HO
    isplitl [HtS]; · iexact HtS
    isplitr; · iexact HrS
    isplitl [HtVP]; · iexact HtVP
    iexact HrVP
  iintro ⟨HcS, HO⟩
  sl_exec
  -- slot 1 holds the partner's row sums
  unfold recvPay slotAt
  icases HatV_pay1 with ⟨%fl, %hfl, Hs1⟩
  ihave Hs1 := (Entails.of_eq (show (scrLoc c ↦[r1.set]{fullShare} fl : sProp 𝕄)
      = ((s1M : Memref sig .tc .vmem _ .f32).view.loc (c : Thread nD τ) ↦[(s1M : Memref sig .tc .vmem _ .f32).view.set]{fullShare} fl) from by rw [set_s1M])) $$ Hs1
  sl_exec
  -- the two own cells close
  imod (Rounds.cell_close ER (pairRd m) (Set.mem_univ (K (c, 1))) (fun h => h) (R := 0 + 1) (duties_later m (sendCell c))) $$ [HatS] with HzS
  · isplitr; · iexact HIsnd
    iexact HatS
  imod (Rounds.cell_close ER (pairRd m) (Set.mem_univ (K (c, 2))) (fun h => h) (R := 0 + 1) (duties_later m (recvCell c))) $$ [HatV] with HzV
  · isplitr; · iexact HIrcv
    iexact HatV
  -- the lent half of slot 0 comes back: the two halves hold the same contents
  unfold sendPay slotAt
  icases HatS_pay1 with ⟨%fr, %hfr, Hs0R⟩
  ihave Hs0L := (Entails.of_eq (slot0_form c fullShare.left (sound_body.sl.Hs0_w1 m c f0))) $$ Hs0L
  ihave Hag := (persistent_entails_right pointsTo_agree) $$ [Hs0L Hs0R]
  · isplitl [Hs0L]; · iexact Hs0L
    iexact Hs0R
  icases Hag with ⟨%hag, Hs0L, Hs0R⟩
  ihave Hs0R := (Entails.of_eq (pointsTo_congr (f := fr) (g := sound_body.sl.Hs0_w1 m c f0) fun i hi => (hag i (Finset.mem_inter.mpr ⟨hi, hi⟩)).1.symm)) $$ Hs0R
  ihave Hs0 := (pointsTo_share (PosShare.mem_left_op_right fullShare)).2 $$ [Hs0L Hs0R]
  · isplitl [Hs0L]; · iexact Hs0L
    iexact Hs0R
  -- the exchange buffer whole again
  ihave Hs1 := (Entails.of_eq ((slot1_form c fullShare fl).trans (by rw [r1_eq_compl]))) $$ Hs1
  ihave Hscr := (pointsTo_join_subset (ℓ := scrLoc c) (I := r0.set) (S := Finset.univ) (q := fullShare)
      (g := sound_body.sl.Hs0_w1 m c f0) (f := fl) (Finset.subset_univ _)) $$ [Hs0 Hs1]
  · isplitl [Hs0]; · iexact Hs0
    iexact Hs1
  ihave Hx := (Entails.of_eq (whole_form c cc0_stg0_0 fullShare (xstg m c))) $$ Hx
  ihave Hout := (Entails.of_eq (whole_form c cc0_stg1_0 fullShare _)) $$ Hout
  rw [wp_ret]; imodintro
  iapply Hk
  unfold bodyPost Φ₁ Dat.owesAt Pipeline.owesWithin
  rw [show (dats m 0 c).owed t₀.succ = 0 from rfl]
  isplitl [Hscr HzS HzV]
  · isplitl [Hscr]; · iexists _; iexact Hscr
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr
  · ipureintro
    exact (write_out g1 _).trans (congrArg₂ k0_pay1 (congrArg k0_pay2 (read_x _)) hfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`: the body from the pipeline's invariant at the one grid point. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.Proto.body_obligation' depends on axioms: [propext, Classical.choice, Quot.sound] -/
#guard_msgs in #print axioms body_obligation

end Body

end Cert.Kernel.Proto

end
-- ==== Proof.Bits.Launch.lean ====
/-
  The launch of the pairs' protocol on the four devices. The launch element deals every device the round states,
  positions and duty tokens of its own three cells. Under one update all devices' semaphores at zero become the cells'
  invariants, and the duty tokens go to the devices that pay them: a barrier cell's and a receive cell's token to the
  partner, a send cell's stays. The credit owed at launch arrives at the cell it is owed to: a barrier cell is owed
  one unit and a receive cell the transfer's credit, both by the partner. Given the body's obligation, the four
  kernels run to the end and every device's arrays end as the pipeline's proof data say: the input block unchanged,
  the result holding the own block's row sums plus the partner's.
-/
import proofs.«901100_g7700000000001101_dist_sum_ax1_xy_m512_n256_v7x_xy2x2_bf16_1_alg».proof.Proof.Bits.Proto

noncomputable section

namespace Cert.Kernel.Proto

open Cert.Kernel Cert.Kernel.Gen Cert.Kernel.Pair

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it deals -/

theorem ownSemFacts : Pipeline.OwnSemFacts cfg0.spec osem := by decide

theorem share_eq (c : Dev nD) (w : Fin cfg0.W) : (dats (F := F) m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The twelve cells of the pairs' protocol: every device's barrier, send and receive cell. -/
def pairCells : Finset (GSem nD τ sig) := Finset.univ.map ⟨kcell, kcell_injective⟩

/-- A device's own cells' duty tokens as minted: one a cell, at round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, positions, reached marks and tokens. -/
def G (c : Dev nD) : sProp 𝕄 :=
  iprop((bigSep Finset.univ fun k : Fin 3 => roundState ER (pairRd m) (kcell (c, k)) 0)
    ∗ (bigSep Finset.univ fun k : Fin 3 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m K c)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_pair : BI.own (ER (initOf pairCells pairToks)) ⊢ (|==> bigSep Finset.univ (G m) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m) pairCells pairToks) $$ HX with ⟨Hst, Hr, Hat, Htok⟩
  imodintro
  ihave Hst' := (Entails.of_eq (hX fun g => roundState ER (pairRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore is the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device's three semaphores at zero and round states become its three cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m) (kcell (c, k)) 0)
      ⊢ (|={Set.univ}=> bigSep Finset.univ fun k => iprop(∃ κ : ℕ, cellInv ER (pairRd m) κ (kcell (c, k))) : sProp 𝕄) from by
        rw [← bigSep_sep']
        exact (bigSep_mono fun k _ => (Rounds.body_intro ER (pairRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- All twelve cells' invariants at the names `K`, and round 0 reached on every cell. -/
def records (K : Dev nD × Fin 3 → ℕ) : sProp 𝕄 :=
  iprop((bigSep Finset.univ fun ck : Dev nD × Fin 3 => cellInv ER (pairRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (pairRd m) (K ck) (kcell ck) : sProp 𝕄)) ⊢ cellInv ER (pairRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` pays: its partner's barrier and receive cells', its own send cell's. -/
def payToks (c : Dev nD) : sProp 𝕄 :=
  iprop(dutyTok ER (barCell (peer c)) 0 () ∗ dutyTok ER (recvCell (peer c)) 0 () ∗ dutyTok ER (sendCell c) 0 ())
/-- What stays with device `c`: its positions and those tokens. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitl [HtB]; · iexact HtB
  isplitl [HtV]; · iexact HtV
  iexact HtS

/-- The tokens dealt across the pairs: a barrier cell's and a receive cell's token go to the partner (the pairing is
    an involution, so summing over partners is summing over devices); a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (pairRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: one unit if `d` is `c`'s partner (its entry signal). -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply,
    Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: the transfer's credit if `d` is `c`'s partner. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)),
    Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

/-- A device's launch credit: its barrier cell's one unit and its receive cell's transfer credit. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀
  iintro ⟨Hs, -, Hr⟩
  isplitl [Hs]; · iexact Hs
  iexact Hr

theorem phi1_exit (c : Dev nD) :
    (dats (F := F) m 0 c).Φ (Fin.last cfg0.N) ⊢ iprop(emp ∗ Pipeline.ownSems0 osem c ∗ Pipeline.scopedRest cfg0.spec c) := by
  rw [show (dats (F := F) m 0 c).Φ (Fin.last cfg0.N) = Φ₁ (F := F) c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats (F := F) m) () 0 c :=
  Pipeline.cellsWaits_intro cfgs (dats (F := F) m) () 0 c fun w s t =>
    mayWait_stage c _ (by fin_cases w <;> fin_cases s <;> decide) _ (by
      rcases t with ⟨_ | _, ht⟩
      · exact Or.inl rfl
      · exact Or.inr rfl)

/-! ### The run -/

/-- Each window's array after the last point. -/
def finalA (c : Dev nD) (w : Fin cfg0.W) : Buf (Elt F) ((cfg0.win w).arr.view.loc (c : Thread nD τ)) := (dats (F := F) m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: given the body's
    obligation on every device, every weakly fair execution of @main — the four kernels handshaking in pairs on the
    barrier semaphore, then exchanging their row sums — terminates, and in every final state each device's arrays hold
    what the proof data say. -/
theorem run_of_body (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The final arrays -/

/-- The input block after the run holds what it held. -/
theorem finalA_x (c : Dev nD) : finalA m c (0 : Fin 2) = m ((c : Thread nD τ).loc main_arg0) :=
  (dats (F := F) m 0 c).arrAt_in (0 : Fin 2) rfl _

/-- The result array after the run: the one point's write-back covers the whole [512, 1] array, so it holds what the
    body left in the staging buffer — the own block's row sums plus the partner's. -/
theorem finalA_out (c : Dev nD) : finalA m c (1 : Fin 2) = outAt m c := by
  unfold finalA
  rw [show cfg0.N = (t₀ : Fin cfg0.N).val + 1 from cfg0_N, Dat.arrAt_succ, if_pos (flush0_1 t₀)]
  exact Memref.write_access_unit_zero_univ (Elt F) main_v1 (funext fun a => Nat.zero_mul _) _ _ _

/-- info: 'Cert.Kernel.Proto.run_of_body' depends on axioms: [propext, Classical.choice, Quot.sound] -/
#guard_msgs in #print axioms run_of_body

end Cert.Kernel.Proto

end
-- ==== Proof.LibRow.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibRow

open Idealize.ShloMosaic Idealize.ShloMosaic.ValueIdx

/-! ## A product with the right operand transposed, read at an index

For dimension numbers that contract axis 1 of BOTH operands, keep axis 0 of each and batch nothing, the operand
indices at output index (p, q) and contraction position k are (p, k) and (q, k): the product at (p, q) is the sum
over k of lhs (p, k) * rhs (q, k), the inner product of row p of the left operand with row q of the right one. -/

section MatmulNT
variable {M K N : ℕ} (d : DotDims ⟨2, ![M, K]⟩ ⟨2, ![N, K]⟩ ⟨2, ![M, N]⟩)

/-- The contracted shape has one axis. -/
theorem contr_rank (hlc : d.lhsContracting = [1]) : d.contr.rank = 1 := by
  rw [d.rank_contr, hlc]; rfl

/-- The contracted shape's one axis has the left operand's column count. -/
theorem contr_size (hlc : d.lhsContracting = [1]) :
    d.contr.size ⟨0, by rw [contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (kept): the output's row coordinate. -/
theorem lhsIdx_axis0 (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- Left operand, axis 1 (contracted): the contraction position's one coordinate. -/
theorem lhsIdx_axis1 (hlc : d.lhsContracting = [1])
    (j : (⟨2, ![M, N]⟩ : Shape).Idx) (k : d.contr.Idx) :
    (d.lhsIdx j k 1).val = (k ⟨0, by rw [contr_rank d hlc]; exact Nat.one_pos⟩).val :=
  d.lhsIdx_val_of_single hlc j k

/-- Right operand, axis 0 (kept): the output's column coordinate. -/
theorem rhsIdx_axis0 (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- Right operand, axis 1 (contracted): the contraction position's one coordinate. -/
theorem rhsIdx_axis1 (hlc : d.lhsContracting = [1]) (hrc : d.rhsContracting = [1])
    (j : (⟨2, ![M, N]⟩ : Shape).Idx) (k : d.contr.Idx) :
    (d.rhsIdx j k 1).val = (k ⟨0, by rw [contr_rank d hlc]; exact Nat.one_pos⟩).val :=
  d.rhsIdx_val_of_single hrc j k

/-- An [M,K]·[N,K]ᵀ product into the zero accumulator reads, at (p, q), the sum over k of lhs (p, k) * rhs (q, k). -/
theorem matmul_nt_zero_ix2 {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (lhs : FVec Ideal ⟨2, ![M, K]⟩ φ₁) (rhs : FVec Ideal ⟨2, ![N, K]⟩ φ₂)
    (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have hl : d.lhsIdx (ix2 p q) ((contrEquiv1 d K (contr_rank d hlc) (contr_size d hlc)).symm k) = ix2 p k := by
    funext a
    refine Fin.ext ?_
    match a with
    | ⟨0, _⟩ => exact lhsIdx_axis0 d hln hlb _ _
    | ⟨1, _⟩ => exact (lhsIdx_axis1 d hlc _ _).trans hk
  have hr : d.rhsIdx (ix2 p q) ((contrEquiv1 d K (contr_rank d hlc) (contr_size d hlc)).symm k) = ix2 q k := by
    funext a
    refine Fin.ext ?_
    match a with
    | ⟨0, _⟩ => exact rhsIdx_axis0 d hln hrn hlb hrb _ _
    | ⟨1, _⟩ => exact (rhsIdx_axis1 d hlc hrc _ _).trans hk
  rw [hl, hr]

end MatmulNT

/-! ## A column over many columns, and two blocks side by side -/

section Layout
variable {α : Type}

/-- An [m, 1] column broadcast to [m, n] reads, at (p, q), the column at p. -/
theorem broadcastTo_col_apply {m n : ℕ} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ => rfl

/-- [m, a] and [m, b] joined along axis 1 into [m, c] read, at a column q below a, the first block at (p, q). -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (q : Fin c) (q' : Fin a)
    (hq : q'.val = q.val) :
    concatenate ⟨2, ![m, c]⟩ 1 [⟨⟨2, ![m, a]⟩, x₁⟩, ⟨⟨2, ![m, b]⟩, x₂⟩] h (ix2 p q) = x₁ (ix2 p q') :=
  concatenate_pair_apply_left 1 x₁ x₂ h (ix2 p q) rfl (ix2 p q') (fun bx => by
    match bx with
    | ⟨0, _⟩ => rfl
    | ⟨1, _⟩ => exact hq)

/-- … and, at a column q from a on, the second block at (p, q - a). -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (q : Fin c) (q' : Fin b)
    (hq : q'.val + a = q.val) :
    concatenate ⟨2, ![m, c]⟩ 1 [⟨⟨2, ![m, a]⟩, x₁⟩, ⟨⟨2, ![m, b]⟩, x₂⟩] h (ix2 p q) = x₂ (ix2 p q') :=
  concatenate_pair_apply_right 1 x₁ x₂ h (ix2 p q) rfl rfl (ix2 p q') (fun bx hbx => by
    match bx with
    | ⟨0, _⟩ => rfl
    | ⟨1, _⟩ => exact absurd rfl hbx) hq

end Layout

/-! ## Two readings at the extended reals -/

/-- A square root of an array reads, at an index, the extended reals' square root of the entry. -/
theorem sqrt_apply {s : Shape} {φ : FTy} (v : FVec Ideal s φ) (i : s.Idx) : sqrt v i = Ideal.sqrt (v i) := rfl

/-- A scalar literal is the extended real its word encodes. -/
theorem scalar_ofBits (φ : FTy) (w : BitVec φ.bits) : Scalar.ofBits (F := Ideal) φ w = Ideal.ofBits φ w := rfl

/-! ## A row's sum of squares through a lane reduction kept as a column -/

/-- The add-reduction over axis 1 of the elementwise square of an [m, n] array, cast to an [m, 1] column, reads at
    (p, u) the sum over k of the square of the array at (p, k). -/
theorem rowsq_col_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (p : Fin m) (u : Fin 1) :
    shapeCast ⟨2, ![m, 1]⟩ (multiReduction .add [1] ⟨1, ![m]⟩ (mulf v v) acc h hφ hacc) hc (ix2 p u)
      = ∑ k : Fin n, v (ix2 p k) * v (ix2 p k) := by
  refine (shapeCast_apply _ hc (ix2 p u) (ix1 p) (by
    have hu : u.val = 0 := by omega
    rw [Shape.rowMajor_val_two, Shape.rowMajor_val_one]
    show p.val = p.val * 1 + u.val
    rw [hu, Nat.mul_one, Nat.add_zero])).trans ?_
  rw [Ideal.multiReduction_add_single]
  refine Finset.sum_congr rfl fun k _ => ?_
  have e : h.lift (ix1 p) k = ix2 p k := funext fun e => Fin.ext (by
    match e with
    | ⟨0, _⟩ => rfl
    | ⟨1, _⟩ => rfl)
  rw [e]
  rfl

/-- The add-reduction over axis 1 of an [m, n] array, cast to an [m, 1] column, reads at (p, u) the sum over k of the
    array at (p, k). -/
theorem rowsum_col_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (p : Fin m) (u : Fin 1) :
    shapeCast ⟨2, ![m, 1]⟩ (multiReduction .add [1] ⟨1, ![m]⟩ v acc h hφ hacc) hc (ix2 p u)
      = ∑ k : Fin n, v (ix2 p k) := by
  refine (shapeCast_apply _ hc (ix2 p u) (ix1 p) (by
    have hu : u.val = 0 := by omega
    rw [Shape.rowMajor_val_two, Shape.rowMajor_val_one]
    show p.val = p.val * 1 + u.val
    rw [hu, Nat.mul_one, Nat.add_zero])).trans ?_
  rw [Ideal.multiReduction_add_single]
  refine Finset.sum_congr rfl fun k _ => ?_
  exact congrArg v (funext fun e => Fin.ext (by
    match e with
    | ⟨0, _⟩ => rfl
    | ⟨1, _⟩ => rfl))

/-- The add-reduction over axis 1 of the elementwise square of an [m, n] array, cast to a [1, m] row, reads at
    (u, p) the sum over k of the square of the array at (p, k). -/
theorem rowsq_row_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![1, m]⟩) (u : Fin 1) (p : Fin m) :
    shapeCast ⟨2, ![1, m]⟩ (multiReduction .add [1] ⟨1, ![m]⟩ (mulf v v) acc h hφ hacc) hc (ix2 u p)
      = ∑ k : Fin n, v (ix2 p k) * v (ix2 p k) := by
  refine (shapeCast_a_1a_apply _ hc u p).trans ?_
  rw [Ideal.multiReduction_add_single]
  refine Finset.sum_congr rfl fun k _ => ?_
  have e : h.lift (ix1 p) k = ix2 p k := funext fun e => Fin.ext (by
    match e with
    | ⟨0, _⟩ => rfl
    | ⟨1, _⟩ => rfl)
  rw [e]
  rfl

end Cert.LibRow

end
-- ==== Proof.PairValue.lean ====
/-
  The value part: the reference's result as a function of the whole array, and the equality of each device's stored
  column with its block of that result.
-/
import proofs.«901100_g7700000000001101_dist_sum_ax1_xy_m512_n256_v7x_xy2x2_bf16_1_alg».proof.Defs
import proofs.«901100_g7700000000001101_dist_sum_ax1_xy_m512_n256_v7x_xy2x2_bf16_1_alg».proof.Proof.Pair
import proofs.«901100_g7700000000001101_dist_sum_ax1_xy_m512_n256_v7x_xy2x2_bf16_1_alg».proof.Proof.LibRow
import proofs.«901100_g7700000000001101_dist_sum_ax1_xy_m512_n256_v7x_xy2x2_bf16_1_alg».proof.Proof.Gen.ReferenceIdeal
import proofs.«901100_g7700000000001101_dist_sum_ax1_xy_m512_n256_v7x_xy2x2_bf16_1_alg».proof.Proof.Gen.Pre_finite_inputs_ReferenceIdeal
import proofs.«901100_g7700000000001101_dist_sum_ax1_xy_m512_n256_v7x_xy2x2_bf16_1_alg».proof.Proof.Gen.ReferenceIdeal.Run
import proofs.«901100_g7700000000001101_dist_sum_ax1_xy_m512_n256_v7x_xy2x2_bf16_1_alg».proof.Proof.Gen.ReferenceIdeal.Read

noncomputable section

open scoped BigOperators

namespace Cert.KernelIdeal.PairValue

open Idealize.ShloMosaic Idealize.SL.Sem Idealize.ShloMosaic.Layout

/-- The reference's result as a function of the whole array: every row's sum over all 512 columns, kept as a column. -/
def refOut (X : (⟨Cert.ReferenceIdeal.S1024x512, .f32⟩ : BufTy).Contents (Elt Ideal)) :
    (⟨Cert.ReferenceIdeal.S1024x1, .f32⟩ : BufTy).Contents (Elt Ideal) :=
  Cert.ReferenceIdeal.Read.val_main_v1 (F := Ideal) X

/-- The reference runs to the end with its result buffer holding `refOut` of its argument and the argument unchanged. -/
theorem ref_run (m' : (l : Loc Cert.ReferenceIdeal.nD Cert.ReferenceIdeal.τ Cert.ReferenceIdeal.sig) → Buf (Elt Ideal) l)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans (Cert.ReferenceIdeal.Read.val_main_v1_eq _), (h 0).2⟩)
    (Cert.ReferenceIdeal.Value.run (F := Ideal) m' g')

/-- The reference's frame: it runs to the end and leaves its argument unchanged. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

open Idealize.ShloMosaic.ValueIdx

/-! ## The kernel's arithmetic read at an index -/

/-- The word 0x3F800000 is the real number one. -/
theorem one_f32 : Ideal.ofBits .f32 0x3F800000#32 = 1 := by
  simp [Ideal.ofBits, Ideal.ieee]
  rw [← EReal.coe_mul]
  norm_num

/-- A block's row sums, as the kernel computes them (a row of ones against the block, contracted along the columns of
    both), read at (0, 0, r): the sum over the 256 columns of the block's row r. -/
theorem rowSums_apply (X : Vec Ideal Cert.KernelIdeal.S512x256 .f32) (u v : Fin 1) (r : Fin 512) :
    Pair.rowSums (F := Ideal) X (ix3 u v r) = ∑ k : Fin 256, X (ix2 r k) := by
  show shapeCast Cert.KernelIdeal.S1x1x512
      (FloatOps.matmul Cert.KernelIdeal.dot_S1x256_S512x256_S1x512_1_1_0_0_n_n none
        (broadcast Cert.KernelIdeal.S1x256 (Scalar.ofBits (F := Ideal) .f32 0x3F800000#32))
        (shapeCast Cert.KernelIdeal.S512x256 X Cert.KernelIdeal.Gen.shapeCasts_S512x256_S512x256)
        (constant Cert.KernelIdeal.S1x512 .f32 0x00000000#32))
      Cert.KernelIdeal.Gen.shapeCasts_S1x512_S1x1x512 (ix3 u v r) = _
  rw [shapeCast_ab_1ab_apply, shapeCast_self]
  rw [Cert.LibRow.matmul_nt_zero_ix2 Cert.KernelIdeal.dot_S1x256_S512x256_S1x512_1_1_0_0_n_n rfl rfl rfl rfl rfl rfl]
  refine Finset.sum_congr rfl fun k _ => ?_
  rw [broadcast_apply]
  show Ideal.ofBits .f32 0x3F800000#32 * _ = _
  rw [one_f32, one_mul]

/-- What a device stores, read at (r, 0): its own block's row sum plus its partner's. -/
theorem outOf_apply (X Y : Vec Ideal Cert.KernelIdeal.S512x256 .f32) (r : Fin 512) (u : Fin 1) :
    Pair.outOf (F := Ideal) X Y (ix2 r u) = (∑ k : Fin 256, X (ix2 r k)) + ∑ k : Fin 256, Y (ix2 r k) := by
  show transpose Cert.KernelIdeal.S512x1 [1, 0]
      (addf (shapeCast Cert.KernelIdeal.S1x512 (Pair.rowSums (F := Ideal) X) Cert.KernelIdeal.Gen.shapeCasts_S1x1x512_S1x512)
            (shapeCast Cert.KernelIdeal.S1x512 (Pair.rowSums (F := Ideal) Y) Cert.KernelIdeal.Gen.shapeCasts_S1x1x512_S1x512))
      Cert.KernelIdeal.Gen.transposes_S1x512_p1_0_S512x1 (ix2 r u) = _
  rw [transpose_ix2_apply, addf_apply, shapeCast_1ab_ab_apply, shapeCast_1ab_ab_apply, rowSums_apply, rowSums_apply]

/-! ## The reference read at an index -/

/-- The reference's result at a row: the sum over all 512 columns of that row of the whole array. -/
theorem refOut_apply (X : (⟨Cert.ReferenceIdeal.S1024x512, .f32⟩ : BufTy).Contents (Elt Ideal)) (j : Cert.ReferenceIdeal.S1024x1.Idx) :
    refOut X j = ∑ k : Fin 512, X (ix2 (j 0) k) := by
  unfold refOut
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  refine Finset.sum_congr rfl fun k _ => congrArg X (funext fun a => ?_)
  match a with
  | ⟨0, _⟩ => rfl
  | ⟨1, _⟩ => rfl

/-! ## A row's sum as the sum of its two halves -/

/-- A row of 512 entries summed as its two halves of 256, taken in either order (`b` names the half taken first). -/
theorem sum_halves (g : Fin 512 → EReal) (b : ℕ) (hb : b < 2) :
    (∑ k : Fin 256, g ⟨b * 256 + k.val, by have := k.isLt; omega⟩)
      + ∑ k : Fin 256, g ⟨(1 - b) * 256 + k.val, by have := k.isLt; omega⟩
    = ∑ k : Fin 512, g k := by
  have key : ∑ k : Fin 512, g k
      = (∑ k : Fin 256, g ⟨k.val, by have := k.isLt; omega⟩) + ∑ k : Fin 256, g ⟨256 + k.val, by have := k.isLt; omega⟩ :=
    Fin.sum_univ_add (a := 256) (b := 256) g
  rw [key]
  interval_cases b
  · refine congrArg₂ (· + ·) (Finset.sum_congr rfl fun k _ => congrArg g (Fin.ext ?_))
      (Finset.sum_congr rfl fun k _ => congrArg g (Fin.ext ?_))
    · show 0 * 256 + k.val = k.val
      omega
    · show (1 - 0) * 256 + k.val = 256 + k.val
      omega
  · rw [add_comm]
    refine congrArg₂ (· + ·) (Finset.sum_congr rfl fun k _ => congrArg g (Fin.ext ?_))
      (Finset.sum_congr rfl fun k _ => congrArg g (Fin.ext ?_))
    · show (1 - 1) * 256 + k.val = k.val
      omega
    · show 1 * 256 + k.val = 256 + k.val
      omega

/-! ## A device's blocks read at an index -/

/-- Device `c`'s block coordinate along the rows: its mesh row `c / 2`. -/
theorem mesh_row (c : Fin 4) : meshLin [2, 2] c.val [0] = c.val / 2 := by revert c; decide
/-- Device `c`'s block coordinate along the columns: its mesh column `c % 2`. -/
theorem mesh_col (c : Fin 4) : meshLin [2, 2] c.val [1] = c.val % 2 := by revert c; decide
/-- The partner sits in the same mesh row … -/
theorem peer_row (c : Dev Cert.KernelIdeal.nD) : (Pair.peer c).val / 2 = c.val / 2 := by revert c; decide
/-- … and in the other mesh column. -/
theorem peer_col (c : Dev Cert.KernelIdeal.nD) : (Pair.peer c).val % 2 = 1 - c.val % 2 := by revert c; decide

/-- Device `c`'s block of the whole [1024, 512] array read at (r, k): the whole array at row `512 (c / 2) + r`,
    column `256 (c % 2) + k`. -/
theorem block_in_apply (X : (⟨2, ![1024, 512]⟩ : Shape).Idx → EReal) (c : Fin 4) (r : Fin 512) (k : Fin 256) :
    (blockN ⟨2, ![512, 256]⟩ ⟨2, ![1024, 512]⟩ (meshBlock [2, 2] ![[0], [1]] c) X) (ix2 r k)
      = X (ix2 (⟨c.val / 2 * 512 + r.val, by have := c.isLt; have := r.isLt; omega⟩ : Fin 1024)
            (⟨c.val % 2 * 256 + k.val, by have := c.isLt; have := k.isLt; omega⟩ : Fin 512)) := by
  rw [blockN_apply]
  refine congrArg X (funext fun a => Fin.ext ?_)
  match a with
  | ⟨0, _⟩ =>
    show meshLin [2, 2] c.val [0] * 512 + r.val = c.val / 2 * 512 + r.val
    rw [mesh_row]
  | ⟨1, _⟩ =>
    show meshLin [2, 2] c.val [1] * 256 + k.val = c.val % 2 * 256 + k.val
    rw [mesh_col]

/-- Device `c`'s block of a whole [1024, 1] column read at (r, u): the whole column at row `512 (c / 2) + r`. -/
theorem block_out_apply (V : (⟨2, ![1024, 1]⟩ : Shape).Idx → EReal) (c : Fin 4) (r : Fin 512) (u : Fin 1) :
    (blockN ⟨2, ![512, 1]⟩ ⟨2, ![1024, 1]⟩ (meshBlock [2, 2] ![[0], []] c) V) (ix2 r u)
      = V (ix2 (⟨c.val / 2 * 512 + r.val, by have := c.isLt; have := r.isLt; omega⟩ : Fin 1024) (0 : Fin 1)) := by
  rw [blockN_apply]
  refine congrArg V (funext fun a => Fin.ext ?_)
  match a with
  | ⟨0, _⟩ =>
    show meshLin [2, 2] c.val [0] * 512 + r.val = c.val / 2 * 512 + r.val
    rw [mesh_row]
  | ⟨1, _⟩ =>
    show meshLin [2, 2] c.val [] * 1 + u.val = 0
    have := u.isLt
    show 0 * 1 + u.val = 0
    omega

/-! ## Each device's stored column is its block of the reference's result -/

/-- Device `c` stores the row sums of its own block plus those of its partner's block; the two blocks are the two
    halves of the same 512 rows of the whole array, so the stored column is rows `512 (c / 2) + [0, 512)` of the
    reference's result. Addition of extended reals is commutative and associative, so no finiteness is used. -/
theorem block_eq (X : (⟨Cert.ReferenceIdeal.S1024x512, .f32⟩ : BufTy).Contents (Elt Ideal)) (c : Dev Cert.KernelIdeal.nD) :
    Pair.outOf (F := Ideal)
        (blockN ⟨2, ![512, 256]⟩ ⟨2, ![1024, 512]⟩ (meshBlock [2, 2] ![[0], [1]] c) X)
        (blockN ⟨2, ![512, 256]⟩ ⟨2, ![1024, 512]⟩ (meshBlock [2, 2] ![[0], [1]] (Pair.peer c)) X)
      = blockN ⟨2, ![512, 1]⟩ ⟨2, ![1024, 1]⟩ (meshBlock [2, 2] ![[0], []] c) (refOut X) := by
  funext i
  obtain ⟨r, u, rfl⟩ : ∃ (r : Fin 512) (u : Fin 1), i = ix2 r u := ⟨i 0, i 1, eq_ix2 i⟩
  rw [outOf_apply, block_out_apply, refOut_apply]
  have hc : c.val < 4 := c.isLt
  have hb : c.val % 2 < 2 := Nat.mod_lt _ (by decide)
  rw [← sum_halves (fun k => X (ix2 (⟨c.val / 2 * 512 + r.val, by have := r.isLt; omega⟩ : Fin 1024) k)) (c.val % 2) hb]
  refine congrArg₂ (· + ·) (Finset.sum_congr rfl fun k _ => ?_) (Finset.sum_congr rfl fun k _ => ?_)
  · exact block_in_apply X c r k
  · rw [block_in_apply X (Pair.peer c) r k]
    refine congrArg X (funext fun a => Fin.ext ?_)
    match a with
    | ⟨0, _⟩ =>
      show (Pair.peer c).val / 2 * 512 + r.val = c.val / 2 * 512 + r.val
      rw [peer_row]
    | ⟨1, _⟩ =>
      show (Pair.peer c).val % 2 * 256 + k.val = (1 - c.val % 2) * 256 + k.val
      rw [peer_col]

/-- info: 'Cert.KernelIdeal.PairValue.block_eq' depends on axioms: [propext, Classical.choice, Quot.sound] -/
#guard_msgs in #print axioms block_eq

end Cert.KernelIdeal.PairValue

end
-- ==== Proof.lean ====
/-
  The five claims for the row-sum exchange on the 2x2 mesh.

  Every device's kernel ends with its input block unchanged and its result holding the row sums of its own block plus
  those of its partner's block (the run, from the body's obligation and the launch: at the word level for the first
  frame, at the ideal instance for the second frame and the value). The reference's run gives its frame and its
  result, the sum of every row of the whole array. A device's block and its partner's block are the two column halves
  of the same rows, so the two partial sums add up to the whole row's sum, in any order on the extended reals; the
  device's result is therefore its block of the reference's. The idealization rewrote nothing.
-/
import proofs.«901100_g7700000000001101_dist_sum_ax1_xy_m512_n256_v7x_xy2x2_bf16_1_alg».proof.Defs
import proofs.«901100_g7700000000001101_dist_sum_ax1_xy_m512_n256_v7x_xy2x2_bf16_1_alg».proof.Proof.Gen.Kernel
import proofs.«901100_g7700000000001101_dist_sum_ax1_xy_m512_n256_v7x_xy2x2_bf16_1_alg».proof.Proof.Gen.KernelIdeal
import proofs.«901100_g7700000000001101_dist_sum_ax1_xy_m512_n256_v7x_xy2x2_bf16_1_alg».proof.Proof.Gen.ReferenceIdeal
import proofs.«901100_g7700000000001101_dist_sum_ax1_xy_m512_n256_v7x_xy2x2_bf16_1_alg».proof.Proof.Gen.Pre_finite_inputs_Kernel
import proofs.«901100_g7700000000001101_dist_sum_ax1_xy_m512_n256_v7x_xy2x2_bf16_1_alg».proof.Proof.Gen.Pre_finite_inputs_ReferenceIdeal
import proofs.«901100_g7700000000001101_dist_sum_ax1_xy_m512_n256_v7x_xy2x2_bf16_1_alg».proof.Proof.Body
import proofs.«901100_g7700000000001101_dist_sum_ax1_xy_m512_n256_v7x_xy2x2_bf16_1_alg».proof.Proof.Launch
import proofs.«901100_g7700000000001101_dist_sum_ax1_xy_m512_n256_v7x_xy2x2_bf16_1_alg».proof.Proof.Bits.Body
import proofs.«901100_g7700000000001101_dist_sum_ax1_xy_m512_n256_v7x_xy2x2_bf16_1_alg».proof.Proof.Bits.Launch
import proofs.«901100_g7700000000001101_dist_sum_ax1_xy_m512_n256_v7x_xy2x2_bf16_1_alg».proof.Proof.PairValue
import Idealize.ShloMosaic.Adequacy
import Idealize.ShloMosaic.Init

noncomputable section

namespace Cert.Proof

open Idealize.ShloMosaic Idealize.ShloMosaic.TcCoe Idealize.SL.Sem

/-- The staged input block is the device's input array (the one block is the whole array). -/
theorem xstg_eq {F : FTy → Type} [FloatOps F] (m : (ℓ : Loc Cert.KernelIdeal.nD Cert.KernelIdeal.τ Cert.KernelIdeal.sig) → Buf (Elt F) ℓ)
    (c : Dev Cert.KernelIdeal.nD) :
    Cert.KernelIdeal.Proto.xstg m c = m ((c : Thread Cert.KernelIdeal.nD Cert.KernelIdeal.τ).loc Cert.KernelIdeal.main_arg0) :=
  Memref.read_access_unit_zero (Elt F) Cert.KernelIdeal.main_arg0 (funext fun a => Nat.zero_mul _) _ _

theorem frame_k : Cert.frame_Kernel := fun m ρ _ =>
  (θ_run (Cert.Kernel.defs (F := Bits)) _ _).mono (fun r h c => (h c 0).trans (Cert.Kernel.Proto.finalA_x m c))
    (Cert.Kernel.Proto.run_of_body (F := Bits) m ρ (Cert.Kernel.Proto.body_obligation m))

theorem frame_ki : Cert.frame_KernelIdeal := fun m ρ _ =>
  (θ_run (Cert.KernelIdeal.defs (F := Ideal)) _ _).mono (fun r h c => (h c 0).trans (Cert.KernelIdeal.Proto.finalA_x m c))
    (Cert.KernelIdeal.Proto.run_of_body (F := Ideal) m ρ (Cert.KernelIdeal.Proto.body_obligation m))

theorem algebraic : Cert.algebraic_KernelIdeal_ReferenceIdeal := by
  intro m ρ m' ρ' _ hagree
  refine ⟨Cert.KernelIdeal.PairValue.refOut _, ?_, Cert.KernelIdeal.PairValue.ref_run m' ρ'⟩
  refine (θ_run (Cert.KernelIdeal.defs (F := Ideal)) _ _).mono (fun r h c => ⟨(h c 1).trans ?_, (h c 0).trans (Cert.KernelIdeal.Proto.finalA_x m c)⟩)
    (Cert.KernelIdeal.Proto.run_of_body (F := Ideal) m ρ (Cert.KernelIdeal.Proto.body_obligation m))
  rw [Cert.KernelIdeal.Proto.finalA_out]
  unfold Cert.KernelIdeal.Proto.outAt
  rw [xstg_eq, xstg_eq, hagree c, hagree (Cert.KernelIdeal.Pair.peer c)]
  exact Cert.KernelIdeal.PairValue.block_eq _ c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.PairValue.frame_ri, trivial, algebraic⟩

end Cert.Proof

end
